-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8192x4096 .f32) (main_arg1 : IVec S4096x1376 32) (main_arg2 : IVec S32x1376 32) (main_arg3 : FVec F S32x11008 .f32) (main_arg4 : FVec F S11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S8192x4096 : Shape := ⟨2, ![8192, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S_ : Shape := ⟨0, ![]⟩
abbrev S4096x1408 : Shape := ⟨2, ![4096, 1408]⟩
abbrev S32x1408 : Shape := ⟨2, ![32, 1408]⟩
abbrev S32x11264 : Shape := ⟨2, ![32, 11264]⟩
abbrev S11264 : Shape := ⟨1, ![11264]⟩
abbrev S1x11264 : Shape := ⟨2, ![1, 11264]⟩
abbrev S8192x11264 : Shape := ⟨2, ![8192, 11264]⟩
abbrev S128x4096 : Shape := ⟨2, ![128, 4096]⟩
abbrev S4096x128 : Shape := ⟨2, ![4096, 128]⟩
abbrev S32x128 : Shape := ⟨2, ![32, 128]⟩
abbrev S32x1024 : Shape := ⟨2, ![32, 1024]⟩
abbrev S1x1024 : Shape := ⟨2, ![1, 1024]⟩
abbrev S128x1024 : Shape := ⟨2, ![128, 1024]⟩
abbrev S1024x128 : Shape := ⟨2, ![1024, 128]⟩
abbrev S8x128 : Shape := ⟨2, ![8, 128]⟩
abbrev S8x1024 : Shape := ⟨2, ![8, 1024]⟩
abbrev S8x128x1 : Shape := ⟨3, ![8, 128, 1]⟩
abbrev S8x128x8 : Shape := ⟨3, ![8, 128, 8]⟩
abbrev S128x128 : Shape := ⟨2, ![128, 128]⟩
abbrev S128x128x1 : Shape := ⟨3, ![128, 128, 1]⟩
abbrev S128x128x8 : Shape := ⟨3, ![128, 128, 8]⟩
abbrev S8192x11008 : Shape := ⟨2, ![8192, 11008]⟩

abbrev nBuf : Space → Nat
  | .hbm => 21
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x1376, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8192x4096, .bf16⟩
  | .hbm, ⟨6, _⟩ => ⟨S_, .i32⟩
  | .hbm, ⟨7, _⟩ => ⟨S_, .i32⟩
  | .hbm, ⟨8, _⟩ => ⟨S4096x1408, .i32⟩
  | .hbm, ⟨9, _⟩ => ⟨S_, .i32⟩
  | .hbm, ⟨10, _⟩ => ⟨S_, .i32⟩
  | .hbm, ⟨11, _⟩ => ⟨S32x1408, .i32⟩
  | .hbm, ⟨12, _⟩ => ⟨S_, .i32⟩
  | .hbm, ⟨13, _⟩ => ⟨S_, .f32⟩
  | .hbm, ⟨14, _⟩ => ⟨S32x11264, .f32⟩
  | .hbm, ⟨15, _⟩ => ⟨S_, .i32⟩
  | .hbm, ⟨16, _⟩ => ⟨S_, .f32⟩
  | .hbm, ⟨17, _⟩ => ⟨S11264, .f32⟩
  | .hbm, ⟨18, _⟩ => ⟨S1x11264, .f32⟩
  | .hbm, ⟨19, _⟩ => ⟨S8192x11264, .f32⟩
  | .hbm, ⟨20, _⟩ => ⟨S8192x11008, .f32⟩
  | .local _ .vmem, ⟨0, _⟩ => ⟨S128x4096, .bf16⟩
  | .local _ .vmem, ⟨1, _⟩ => ⟨S128x4096, .bf16⟩
  | .local _ .vmem, ⟨2, _⟩ => ⟨S4096x128, .i32⟩
  | .local _ .vmem, ⟨3, _⟩ => ⟨S4096x128, .i32⟩
  | .local _ .vmem, ⟨4, _⟩ => ⟨S32x128, .i32⟩
  | .local _ .vmem, ⟨5, _⟩ => ⟨S32x128, .i32⟩
  | .local _ .vmem, ⟨6, _⟩ => ⟨S32x1024, .f32⟩
  | .local _ .vmem, ⟨7, _⟩ => ⟨S32x1024, .f32⟩
  | .local _ .vmem, ⟨8, _⟩ => ⟨S1x1024, .f32⟩
  | .local _ .vmem, ⟨9, _⟩ => ⟨S1x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_c_2 : Ref sig .tc := ⟨.hbm, 15, rfl⟩
abbrev main_call3_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 11], ![false, false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c1024_i32 : BitVec 32 := 1024#32
  let v11 : BitVec 32 := Scalar.muli arg9 c1024_i32
  v11
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32 : BitVec 32 := 8#32
  let v13 : BitVec 32 := Scalar.muli arg9 c8_i32
  v13
def k0_off1 (k0_t1 : Fin k0_t1_loop.trips) : Fin 2 → Nat :=
  let c0_8 : Index := 0#32
  let c0_i32 : BitVec 32 := 0#32
  let c1_i32 : BitVec 32 := 1#32
  let arg9 : BitVec 32 := Scf.iv c0_i32 c1_i32 k0_t1
  let c1024_i32 : BitVec 32 := 1024#32
  let v11 : BitVec 32 := Scalar.muli arg9 c1024_i32
  let v12 : BitVec 32 := v11
  let v15 : Index := Scalar.indexCast v12
  ![0, v15.toNat]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c1024_i32 : BitVec 32 := 1024#32
  let v11 : BitVec 32 := Scalar.muli arg9 c1024_i32
  let v12 : BitVec 32 := v11
  let v18 : Index := Scalar.indexCast v12
  let c0_9 : Index := 0#32
  ![v18.toNat, 0]
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v13 : BitVec 32 := Scalar.muli arg9 c8_i32
  let v14 : BitVec 32 := v13
  let v21 : Index := Scalar.indexCast v14
  let c0_10 : Index := 0#32
  ![v21.toNat, 0]
def k0_off4 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v13 : BitVec 32 := Scalar.muli arg9 c8_i32
  let v14 : BitVec 32 := v13
  let v24 : Index := Scalar.indexCast v14
  let c0_11 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  pads_S4096x1376_S4096x1408_000_0320 : S4096x1376.Pads (![0, 0] : Fin 2 → Nat) ![0, 32] ![0, 0] S4096x1408
  h_S_ : 0 < S_.numel
  pads_S32x1376_S32x1408_000_0320 : S32x1376.Pads (![0, 0] : Fin 2 → Nat) ![0, 32] ![0, 0] S32x1408
  pads_S32x11008_S32x11264_000_02560 : S32x11008.Pads (![0, 0] : Fin 2 → Nat) ![0, 256] ![0, 0] S32x11264
  pads_S11008_S11264_02560 : S11008.Pads (![0] : Fin 1 → Nat) ![256] ![0] S11264
  shapeCasts_S11264_S1x11264 : S11264.ShapeCasts S1x11264
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  h_S1024x128 : 0 < S1024x128.numel
  shapeCasts_S1024x128_S1024x128 : S1024x128.ShapeCasts S1024x128
  h_S8x128 : 0 < S8x128.numel
  shapeCasts_S8x128_S8x128 : S8x128.ShapeCasts S8x128
  h_S8x1024 : 0 < S8x1024.numel
  shapeCasts_S8x1024_S8x1024 : S8x1024.ShapeCasts S8x1024
  shapeCasts_S8x128_S8x128x1 : S8x128.ShapeCasts S8x128x1
  concatenates_S8x128x1_S8x128x1_S8x128x1_S8x128x1_S8x128x1_S8x128x1_S8x128x1_S8x128x1_S8x128x8_d2 : Shape.Concatenates [S8x128x1, S8x128x1, S8x128x1, S8x128x1, S8x128x1, S8x128x1, S8x128x1, S8x128x1] S8x128x8 2
  shapeCasts_S8x128x8_S8x1024 : S8x128x8.ShapeCasts S8x1024
  slices_S128x1024_o0_0_S128x128 : S128x1024.Slices ![0, 0] S128x128
  slices_S1024x128_o0_0_S128x128 : S1024x128.Slices ![0, 0] S128x128
  shapeCasts_S128x128_S128x128x1 : S128x128.ShapeCasts S128x128x1
  concatenates_S128x128x1_S128x128x1_S128x128x1_S128x128x1_S128x128x1_S128x128x1_S128x128x1_S128x128x1_S128x128x8_d2 : Shape.Concatenates [S128x128x1, S128x128x1, S128x128x1, S128x128x1, S128x128x1, S128x128x1, S128x128x1, S128x128x1] S128x128x8 2
  shapeCasts_S128x128x8_S128x1024 : S128x128x8.ShapeCasts S128x1024
  slices_S8x1024_o0_0_S1x1024 : S8x1024.Slices ![0, 0] S1x1024
  broadcasts_S1x1024_S128x1024 : S1x1024.Broadcasts S128x1024
  slices_S128x1024_o0_128_S128x128 : S128x1024.Slices ![0, 128] S128x128
  slices_S1024x128_o128_0_S128x128 : S1024x128.Slices ![128, 0] S128x128
  slices_S8x1024_o1_0_S1x1024 : S8x1024.Slices ![1, 0] S1x1024
  slices_S128x1024_o0_256_S128x128 : S128x1024.Slices ![0, 256] S128x128
  slices_S1024x128_o256_0_S128x128 : S1024x128.Slices ![256, 0] S128x128
  slices_S8x1024_o2_0_S1x1024 : S8x1024.Slices ![2, 0] S1x1024
  slices_S128x1024_o0_384_S128x128 : S128x1024.Slices ![0, 384] S128x128
  slices_S1024x128_o384_0_S128x128 : S1024x128.Slices ![384, 0] S128x128
  slices_S8x1024_o3_0_S1x1024 : S8x1024.Slices ![3, 0] S1x1024
  slices_S128x1024_o0_512_S128x128 : S128x1024.Slices ![0, 512] S128x128
  slices_S1024x128_o512_0_S128x128 : S1024x128.Slices ![512, 0] S128x128
  slices_S8x1024_o4_0_S1x1024 : S8x1024.Slices ![4, 0] S1x1024
  slices_S128x1024_o0_640_S128x128 : S128x1024.Slices ![0, 640] S128x128
  slices_S1024x128_o640_0_S128x128 : S1024x128.Slices ![640, 0] S128x128
  slices_S8x1024_o5_0_S1x1024 : S8x1024.Slices ![5, 0] S1x1024
  slices_S128x1024_o0_768_S128x128 : S128x1024.Slices ![0, 768] S128x128
  slices_S1024x128_o768_0_S128x128 : S1024x128.Slices ![768, 0] S128x128
  slices_S8x1024_o6_0_S1x1024 : S8x1024.Slices ![6, 0] S1x1024
  slices_S128x1024_o0_896_S128x128 : S128x1024.Slices ![0, 896] S128x128
  slices_S1024x128_o896_0_S128x128 : S1024x128.Slices ![896, 0] S128x128
  slices_S8x1024_o7_0_S1x1024 : S8x1024.Slices ![7, 0] S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S8192x11264_S8192x11008_0_0 : S8192x11264.Slices ![0, 0] S8192x11008
  dot_S128x128_S128x1024_S128x1024_1_0_0_1_n_n_wf : DotDims.WF S128x128 S128x1024 S128x1024 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_mult2_dvd : ∀ k0_t1 : Fin k0_t1_loop.trips, 8 ∣ (k0_mult2 k0_t1).toNat
  k0_off1_inb : ∀ k0_t1 : Fin k0_t1_loop.trips, ∀ a, (k0_off1 k0_t1) a + S128x1024.size a ≤ S128x4096.size a
  k0_off2_inb : ∀ k0_t1 : Fin k0_t1_loop.trips, ∀ a, (k0_off2 k0_t1) a + S1024x128.size a ≤ S4096x128.size a
  k0_off3_inb : ∀ k0_t1 : Fin k0_t1_loop.trips, ∀ a, (k0_off3 k0_t1) a + S8x128.size a ≤ S32x128.size a
  k0_off4_inb : ∀ k0_t1 : Fin k0_t1_loop.trips, ∀ a, (k0_off4 k0_t1) a + S8x1024.size a ≤ S32x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .bf16 = 32 ∨ (Rect.block (s := S8192x4096) S128x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x1408.size a
  hwx0_1 : ∀ i : grid0.Coords, EltTy.bits .i32 = 32 ∨ (Rect.block (s := S4096x1408) S4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x1408.size a
  hwx0_2 : ∀ i : grid0.Coords, EltTy.bits .i32 = 32 ∨ (Rect.block (s := S32x1408) S32x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x11264.size a
  hwx0_3 : ∀ i : grid0.Coords, EltTy.bits .f32 = 32 ∨ (Rect.block (s := S32x11264) S32x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x11264.size a
  hwx0_4 : ∀ i : grid0.Coords, EltTy.bits .f32 = 32 ∨ (Rect.block (s := S1x11264) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S8192x11264.size a
  hwx0_5 : ∀ i : grid0.Coords, EltTy.bits .f32 = 32 ∨ (Rect.block (s := S8192x11264) S128x1024.size (cc0_transform_5 i) (hinb0_5 i)).WholeWords (EltTy.packing .f32)

variable [Facts₀]

def dot_S128x128_S128x1024_S128x1024_1_0_0_1_n_n : DotDims S128x128 S128x1024 S128x1024 where
  lhsContracting := [1]
  rhsContracting := [0]
  lhsNonContracting := [0]
  rhsNonContracting := [1]
  lhsBatch := []
  rhsBatch := []
  wf := dot_S128x128_S128x1024_S128x1024_1_0_0_1_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S4096x1376x1 : Shape := ⟨3, ![4096, 1376, 1]⟩
abbrev S1x1x8 : Shape := ⟨3, ![1, 1, 8]⟩
abbrev S4096x1376x8 : Shape := ⟨3, ![4096, 1376, 8]⟩
abbrev S8x1 : Shape := ⟨2, ![8, 1]⟩
abbrev S4096x11008 : Shape := ⟨2, ![4096, 11008]⟩
abbrev S32x1376x1 : Shape := ⟨3, ![32, 1376, 1]⟩
abbrev S32x1376x8 : Shape := ⟨3, ![32, 1376, 8]⟩
abbrev S32x128x11008 : Shape := ⟨3, ![32, 128, 11008]⟩
abbrev S32x1x11008 : Shape := ⟨3, ![32, 1, 11008]⟩
abbrev S8192x11008 : Shape := ⟨2, ![8192, 11008]⟩
abbrev S1x11008 : Shape := ⟨2, ![1, 11008]⟩

abbrev nBuf : Space → Nat
  | .hbm => 69
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1376, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S4096x1376x1, .i32⟩
  | .hbm, ⟨14, _⟩ => ⟨S1x1x8, .i32⟩
  | .hbm, ⟨15, _⟩ => ⟨S4096x1376x8, .i32⟩
  | .hbm, ⟨16, _⟩ => ⟨S4096x1376x8, .i32⟩
  | .hbm, ⟨17, _⟩ => ⟨S4096x1376x8, .i32⟩
  | .hbm, ⟨18, _⟩ => ⟨S_, .i32⟩
  | .hbm, ⟨19, _⟩ => ⟨S4096x1376x8, .i32⟩
  | .hbm, ⟨20, _⟩ => ⟨S4096x1376x8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S8, .i32⟩
  | .hbm, ⟨28, _⟩ => ⟨S8x1, .i32⟩
  | .hbm, ⟨29, _⟩ => ⟨S4096x1376x8, .i32⟩
  | .hbm, ⟨30, _⟩ => ⟨S4096x11008, .i32⟩
  | .hbm, ⟨31, _⟩ => ⟨S8, .i32⟩
  | .hbm, ⟨32, _⟩ => ⟨S_, .i32⟩
  | .hbm, ⟨33, _⟩ => ⟨S8, .i32⟩
  | .hbm, ⟨34, _⟩ => ⟨S8, .i32⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S32x1376x1, .i32⟩
  | .hbm, ⟨39, _⟩ => ⟨S1x1x8, .i32⟩
  | .hbm, ⟨40, _⟩ => ⟨S32x1376x8, .i32⟩
  | .hbm, ⟨41, _⟩ => ⟨S32x1376x8, .i32⟩
  | .hbm, ⟨42, _⟩ => ⟨S32x1376x8, .i32⟩
  | .hbm, ⟨43, _⟩ => ⟨S_, .i32⟩
  | .hbm, ⟨44, _⟩ => ⟨S32x1376x8, .i32⟩
  | .hbm, ⟨45, _⟩ => ⟨S32x1376x8, .i32⟩
  | .hbm, ⟨46, _⟩ => ⟨S_, .i32⟩
  | .hbm, ⟨47, _⟩ => ⟨S8, .i32⟩
  | .hbm, ⟨48, _⟩ => ⟨S8, .i1⟩
  | .hbm, ⟨49, _⟩ => ⟨S_, .i32⟩
  | .hbm, ⟨50, _⟩ => ⟨S8, .i32⟩
  | .hbm, ⟨51, _⟩ => ⟨S8, .i32⟩
  | .hbm, ⟨52, _⟩ => ⟨S8, .i32⟩
  | .hbm, ⟨53, _⟩ => ⟨S8x1, .i32⟩
  | .hbm, ⟨54, _⟩ => ⟨S32x1376x8, .i32⟩
  | .hbm, ⟨55, _⟩ => ⟨S32x11008, .i32⟩
  | .hbm, ⟨56, _⟩ => ⟨S32x128x11008, .i32⟩
  | .hbm, ⟨57, _⟩ => ⟨S32x1x11008, .i32⟩
  | .hbm, ⟨58, _⟩ => ⟨S32x128x11008, .i32⟩
  | .hbm, ⟨59, _⟩ => ⟨S32x128x11008, .i32⟩
  | .hbm, ⟨60, _⟩ => ⟨S32x128x11008, .f32⟩
  | .hbm, ⟨61, _⟩ => ⟨S32x1x11008, .f32⟩
  | .hbm, ⟨62, _⟩ => ⟨S32x128x11008, .f32⟩
  | .hbm, ⟨63, _⟩ => ⟨S32x128x11008, .f32⟩
  | .hbm, ⟨64, _⟩ => ⟨S4096x11008, .f32⟩
  | .hbm, ⟨65, _⟩ => ⟨S8192x11008, .f32⟩
  | .hbm, ⟨66, _⟩ => ⟨S1x11008, .f32⟩
  | .hbm, ⟨67, _⟩ => ⟨S8192x11008, .f32⟩
  | .hbm, ⟨68, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S4096x1376_S4096x1376x1_0_1 : S4096x1376.BroadcastsInDim S4096x1376x1 (![0, 1] : Fin 2 → Fin S4096x1376x1.rank)
  bcast_S8_S1x1x8_2 : S8.BroadcastsInDim S1x1x8 (![2] : Fin 1 → Fin S1x1x8.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  bcast_S8_S8x1_0 : S8.BroadcastsInDim S8x1 (![0] : Fin 1 → Fin S8x1.rank)
  shapeCasts_S4096x1376x8_S4096x11008 : S4096x1376x8.ShapeCasts S4096x11008
  bcast_S32x1376_S32x1376x1_0_1 : S32x1376.BroadcastsInDim S32x1376x1 (![0, 1] : Fin 2 → Fin S32x1376x1.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  shapeCasts_S4096x11008_S32x128x11008 : S4096x11008.ShapeCasts S32x128x11008
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  gather_S4096x1376x8_S8x1_S4096x1376x8_01_2_n_n_2_1_409613761_wf : GatherDims.WF S4096x1376x8 S8x1 S4096x1376x8 [0, 1] [2] [] [2] [] 1 ![4096, 1376, 1]
  gather_S32x1376x8_S8x1_S32x1376x8_01_2_n_n_2_1_3213761_wf : GatherDims.WF S32x1376x8 S8x1 S32x1376x8 [0, 1] [2] [] [2] [] 1 ![32, 1376, 1]
  dot_S8192x4096_S4096x11008_S8192x11008_1_0_0_1_n_n_wf : DotDims.WF S8192x4096 S4096x11008 S8192x11008 [1] [0] [0] [1] [] []

variable [Facts₀]

def gather_S4096x1376x8_S8x1_S4096x1376x8_01_2_n_n_2_1_409613761 : GatherDims S4096x1376x8 S8x1 S4096x1376x8 where
  offsetDims := [0, 1]
  collapsedSliceDims := [2]
  operandBatchingDims := []
  startIndicesBatchingDims := []
  startIndexMap := [2]
  indexVectorDim := 1
  sliceSizes := ![4096, 1376, 1]
  wf := gather_S4096x1376x8_S8x1_S4096x1376x8_01_2_n_n_2_1_409613761_wf
def gather_S32x1376x8_S8x1_S32x1376x8_01_2_n_n_2_1_3213761 : GatherDims S32x1376x8 S8x1 S32x1376x8 where
  offsetDims := [0, 1]
  collapsedSliceDims := [2]
  operandBatchingDims := []
  startIndicesBatchingDims := []
  startIndexMap := [2]
  indexVectorDim := 1
  sliceSizes := ![32, 1376, 1]
  wf := gather_S32x1376x8_S8x1_S32x1376x8_01_2_n_n_2_1_3213761_wf
def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.Spec.lean ====
/-
  The mathematics both programs compute, stated once over the argument arrays.

  A packed word holds eight 4-bit fields; logical column `j` of a word sits at bit offset
  `shiftW j` (the interleaved order 0, 16, 4, 20, 8, 24, 12, 28).  For an output column `n` the packed
  column is `n / 8` and the field is `n % 8`; input row `k` belongs to group `k / 128`.  The dequantised
  weight is `(field of qweight − field of qzeros) · scale`, and the result is
  `out[r, n] = (∑ₖ x[r, k] · w[k, n]) + bias[n]` over the extended reals.
-/
import Idealize.ShloMosaic.PureOps.Ideal
import Idealize.ShloMosaic.Lib.ValueIdx

noncomputable section

open scoped BigOperators

namespace Cert.Awq

open Idealize.ShloMosaic Idealize.ShloMosaic.ValueIdx

/-- Bit offset of the field that holds logical column `j` of a packed word. -/
def shiftW : Fin 8 → BitVec 32 := ![0#32, 16#32, 4#32, 20#32, 8#32, 24#32, 12#32, 28#32]

/-- Field `j` of a packed word: arithmetic shift right by the field's offset, then the low four bits. -/
def nib (q : BitVec 32) (j : Fin 8) : BitVec 32 := IntOp.andi (IntOp.shrsi .vector q (shiftW j)) 15#32

/-- The dequantised weight from a packed weight word, a packed zero-point word, the field and the scale:
    the difference of the two fields, as a real, times the scale. -/
def wval (q z : BitVec 32) (j : Fin 8) (s : EReal) : EReal :=
  ((((nib q j).toInt : ℝ) : EReal) - (((nib z j).toInt : ℝ) : EReal)) * s

abbrev SX : Shape := ⟨2, ![8192, 4096]⟩
abbrev SQW : Shape := ⟨2, ![4096, 1376]⟩
abbrev SQZ : Shape := ⟨2, ![32, 1376]⟩
abbrev SSC : Shape := ⟨2, ![32, 11008]⟩
abbrev SB : Shape := ⟨1, ![11008]⟩
abbrev SO : Shape := ⟨2, ![8192, 11008]⟩

/-- Packed column of output column `n`. -/
def pcol (n : Fin 11008) : Fin 1376 := ⟨n.val / 8, by have := n.isLt; omega⟩
/-- Field of output column `n` inside its packed word. -/
def fld (n : Fin 11008) : Fin 8 := ⟨n.val % 8, by omega⟩
/-- Quantisation group of input row `k`. -/
def grp (k : Fin 4096) : Fin 32 := ⟨k.val / 128, by have := k.isLt; omega⟩

/-- The dequantised weight matrix entry `w[k, n]`. -/
def wgt (qw : IVec SQW 32) (qz : IVec SQZ 32) (sc : FVec Ideal SSC .f32) (k : Fin 4096) (n : Fin 11008) : EReal :=
  wval (qw (ix2 k (pcol n))) (qz (ix2 (grp k) (pcol n))) (fld n) (sc (ix2 (grp k) n))

/-- The result at row `r`, column `n`. -/
def outAt (x : FVec Ideal SX .f32) (qw : IVec SQW 32) (qz : IVec SQZ 32) (sc : FVec Ideal SSC .f32) (b : FVec Ideal SB .f32)
    (r : Fin 8192) (n : Fin 11008) : EReal :=
  (∑ k : Fin 4096, x (ix2 r k) * wgt qw qz sc k n) + b (ix1 n)

/-- The whole result array. -/
def OUT (x : FVec Ideal SX .f32) (qw : IVec SQW 32) (qz : IVec SQZ 32) (sc : FVec Ideal SSC .f32) (b : FVec Ideal SB .f32) :
    FVec Ideal SO .f32 := fun i => outAt x qw qz sc b (i 0) (i 1)

theorem OUT_apply (x : FVec Ideal SX .f32) (qw : IVec SQW 32) (qz : IVec SQZ 32) (sc : FVec Ideal SSC .f32) (b : FVec Ideal SB .f32)
    (r : Fin 8192) (n : Fin 11008) : OUT x qw qz sc b (ix2 r n) = outAt x qw qz sc b r n := rfl

end Cert.Awq

end
-- ==== Proof.SpecG.lean ====
/-
  The weight matrix and the row-by-column product over arrays of any extents: the argument arrays themselves,
  the arrays padded on the right with zero columns, and the blocks one grid point sees are three instances.
-/
import proofs.«402201_j53455162966737_4_alg».proof.Proof.Spec

noncomputable section

open scoped BigOperators

namespace Cert.Awq

open Idealize.ShloMosaic Idealize.ShloMosaic.ValueIdx

/-- The dequantised weight `w[k, n]` from a `[K, P]` array of packed weights, a `[G, P]` array of packed zero
    points and a `[G, N]` array of scales: output column `n` is field `n % 8` of packed column `n / 8`, input row `k`
    is in group `k / 128`. -/
def wgtG {K G P N : ℕ} (hN : N ≤ 8 * P) (hK : K ≤ 128 * G) (qw : IVec ⟨2, ![K, P]⟩ 32) (qz : IVec ⟨2, ![G, P]⟩ 32)
    (sc : (⟨2, ![G, N]⟩ : Shape).Idx → EReal) (k : Fin K) (n : Fin N) : EReal :=
  wval (qw (ix2 k ⟨n.val / 8, by have := n.isLt; omega⟩))
    (qz (ix2 ⟨k.val / 128, by have := k.isLt; omega⟩ ⟨n.val / 8, by have := n.isLt; omega⟩))
    ⟨n.val % 8, by omega⟩ (sc (ix2 ⟨k.val / 128, by have := k.isLt; omega⟩ n))

/-- Row `r` of `x` against column `n` of the dequantised weights. -/
def dotG {M K G P N : ℕ} (hN : N ≤ 8 * P) (hK : K ≤ 128 * G) (x : (⟨2, ![M, K]⟩ : Shape).Idx → EReal)
    (qw : IVec ⟨2, ![K, P]⟩ 32) (qz : IVec ⟨2, ![G, P]⟩ 32) (sc : (⟨2, ![G, N]⟩ : Shape).Idx → EReal)
    (r : Fin M) (n : Fin N) : EReal :=
  ∑ k : Fin K, x (ix2 r k) * wgtG hN hK qw qz sc k n

theorem outAt_eq_dotG (x : FVec Ideal SX .f32) (qw : IVec SQW 32) (qz : IVec SQZ 32) (sc : FVec Ideal SSC .f32)
    (b : FVec Ideal SB .f32) (r : Fin 8192) (n : Fin 11008) :
    outAt x qw qz sc b r n = dotG (by decide) (by decide) x qw qz sc r n + b (ix1 n) := rfl

end Cert.Awq

end
-- ==== Proof.KGlobal.lean ====
/-
  The kernel's result before the final slice, as one function of the arrays the region finds: the activations
  cast to bf16, the packed weights and zero points padded with 32 zero columns, the scales and the bias padded
  with 256 zero columns.
-/
import proofs.«402201_j53455162966737_4_alg».proof.Proof.Gen.KernelIdeal.Frame
import proofs.«402201_j53455162966737_4_alg».proof.Proof.SpecG

set_option synthInstance.maxSize 4096

noncomputable section

namespace Cert.KernelIdeal.KV

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- The padded result: row `r` of the activations against column `n` of the dequantised padded weights, plus the
    padded bias. -/
def GP (c : Dev nD) : S8192x11264.Idx → EReal := fun i =>
  Cert.Awq.dotG (M := 8192) (K := 4096) (G := 32) (P := 1408) (N := 11264) (by decide) (by decide)
      (V m c main_v0) (V m c main_v1) (V m c main_v2) (V m c main_v3) (i 0) (i 1)
    + V m c main_v5 (ix2 0 (i 1))

theorem GP_apply (c : Dev nD) (r : Fin 8192) (n : Fin 11264) :
    GP m c (ix2 r n) = Cert.Awq.dotG (M := 8192) (K := 4096) (G := 32) (P := 1408) (N := 11264) (by decide) (by decide)
      (V m c main_v0) (V m c main_v1) (V m c main_v2) (V m c main_v3) r n + V m c main_v5 (ix2 0 n) := rfl

end Cert.KernelIdeal.KV

end
-- ==== Proof.KDefs.lean ====
/-
  The kernel body's arithmetic, named once and for every float instance.

  A [128,128] tile of packed words unpacks to a [128,1024] tile: the eight 4-bit fields of each word, in the
  interleaved order of their bit offsets 0, 16, 4, 20, 8, 24, 12, 28, side by side.  One group step adds to
  the accumulator the product of a [128,128] slice of the activations with the dequantised [128,1024] weight
  tile `(fields − zero row) · scale row`.  One trip of the loop over 1024 input rows is eight group steps;
  the body is four trips from the zero accumulator, then the bias row added to every row.
-/
import proofs.«402201_j53455162966737_4_alg».proof.Proof.Gen.KernelIdeal.Skeleton

set_option synthInstance.maxSize 4096

noncomputable section

namespace Cert.KernelIdeal.KV

open Idealize.ShloMosaic Idealize.SL.Sem Cert.KernelIdeal Cert.KernelIdeal.Gen

variable {F : FTy → Type} [FloatOps F]

/-- The eight fields of every word of a [128,128] tile, as a [128,1024] tile of words. -/
def unpackTile (q : IVec S128x128 32) : IVec S128x1024 32 :=
  shapeCast S128x1024
    (concatenate S128x128x8 2
      [⟨S128x128x1, shapeCast S128x128x1 (andi (shrsi q (broadcast S128x128 0#32)) (broadcast S128x128 15#32)) shapeCasts_S128x128_S128x128x1⟩,
      ⟨S128x128x1, shapeCast S128x128x1 (andi (shrsi q (broadcast S128x128 16#32)) (broadcast S128x128 15#32)) shapeCasts_S128x128_S128x128x1⟩,
      ⟨S128x128x1, shapeCast S128x128x1 (andi (shrsi q (broadcast S128x128 4#32)) (broadcast S128x128 15#32)) shapeCasts_S128x128_S128x128x1⟩,
      ⟨S128x128x1, shapeCast S128x128x1 (andi (shrsi q (broadcast S128x128 20#32)) (broadcast S128x128 15#32)) shapeCasts_S128x128_S128x128x1⟩,
      ⟨S128x128x1, shapeCast S128x128x1 (andi (shrsi q (broadcast S128x128 8#32)) (broadcast S128x128 15#32)) shapeCasts_S128x128_S128x128x1⟩,
      ⟨S128x128x1, shapeCast S128x128x1 (andi (shrsi q (broadcast S128x128 24#32)) (broadcast S128x128 15#32)) shapeCasts_S128x128_S128x128x1⟩,
      ⟨S128x128x1, shapeCast S128x128x1 (andi (shrsi q (broadcast S128x128 12#32)) (broadcast S128x128 15#32)) shapeCasts_S128x128_S128x128x1⟩,
      ⟨S128x128x1, shapeCast S128x128x1 (andi (shrsi q (broadcast S128x128 28#32)) (broadcast S128x128 15#32)) shapeCasts_S128x128_S128x128x1⟩]
      concatenates_S128x128x1_S128x128x1_S128x128x1_S128x128x1_S128x128x1_S128x128x1_S128x128x1_S128x128x1_S128x128x8_d2)
    shapeCasts_S128x128x8_S128x1024

/-- The same for the eight zero-point rows of a trip: a [8,128] tile of packed words as [8,1024] words. -/
def unpackRows (q : IVec S8x128 32) : IVec S8x1024 32 :=
  shapeCast S8x1024
    (concatenate S8x128x8 2
      [⟨S8x128x1, shapeCast S8x128x1 (andi (shrsi q (broadcast S8x128 0#32)) (broadcast S8x128 15#32)) shapeCasts_S8x128_S8x128x1⟩,
      ⟨S8x128x1, shapeCast S8x128x1 (andi (shrsi q (broadcast S8x128 16#32)) (broadcast S8x128 15#32)) shapeCasts_S8x128_S8x128x1⟩,
      ⟨S8x128x1, shapeCast S8x128x1 (andi (shrsi q (broadcast S8x128 4#32)) (broadcast S8x128 15#32)) shapeCasts_S8x128_S8x128x1⟩,
      ⟨S8x128x1, shapeCast S8x128x1 (andi (shrsi q (broadcast S8x128 20#32)) (broadcast S8x128 15#32)) shapeCasts_S8x128_S8x128x1⟩,
      ⟨S8x128x1, shapeCast S8x128x1 (andi (shrsi q (broadcast S8x128 8#32)) (broadcast S8x128 15#32)) shapeCasts_S8x128_S8x128x1⟩,
      ⟨S8x128x1, shapeCast S8x128x1 (andi (shrsi q (broadcast S8x128 24#32)) (broadcast S8x128 15#32)) shapeCasts_S8x128_S8x128x1⟩,
      ⟨S8x128x1, shapeCast S8x128x1 (andi (shrsi q (broadcast S8x128 12#32)) (broadcast S8x128 15#32)) shapeCasts_S8x128_S8x128x1⟩,
      ⟨S8x128x1, shapeCast S8x128x1 (andi (shrsi q (broadcast S8x128 28#32)) (broadcast S8x128 15#32)) shapeCasts_S8x128_S8x128x1⟩]
      concatenates_S8x128x1_S8x128x1_S8x128x1_S8x128x1_S8x128x1_S8x128x1_S8x128x1_S8x128x1_S8x128x8_d2)
    shapeCasts_S8x128x8_S8x1024

/-- The zero points of a trip as floats. -/
def zeroRows (zc : IVec S8x128 32) : FVec F S8x1024 .f32 := sitofp .f32 (unpackRows zc)

/-- One group: the accumulator plus activations slice × dequantised weight tile. -/
def groupStep (acc : FVec F S128x1024 .f32) (xs : FVec F S128x128 .bf16) (q : IVec S128x128 32)
    (z s : FVec F S1x1024 .f32) : FVec F S128x1024 .f32 :=
  addf acc
    (matmul dot_S128x128_S128x1024_S128x1024_1_0_0_1_n_n none xs
      (truncf .bf16
        (mulf (subf (sitofp .f32 (unpackTile q)) (broadcastTo S128x1024 z broadcasts_S1x1024_S128x1024))
          (broadcastTo S128x1024 s broadcasts_S1x1024_S128x1024))
        bitsLt_bf16_f32)
      (constant S128x1024 .f32 0x00000000#32))

/-- One trip: eight groups over the trip's 1024 activation columns, 1024 weight rows, 8 zero rows, 8 scale rows. -/
def tripFn (xc : FVec F S128x1024 .bf16) (qc : IVec S1024x128 32) (zc : IVec S8x128 32) (sc : FVec F S8x1024 .f32)
    (acc : FVec F S128x1024 .f32) : FVec F S128x1024 .f32 :=
  groupStep (groupStep (groupStep (groupStep (groupStep (groupStep (groupStep (groupStep (acc)
      (extractStridedSlice S128x128 ![0, 0] xc slices_S128x1024_o0_0_S128x128)
      (extractStridedSlice S128x128 ![0, 0] qc slices_S1024x128_o0_0_S128x128)
      (extractStridedSlice S1x1024 ![0, 0] (zeroRows zc) slices_S8x1024_o0_0_S1x1024)
      (extractStridedSlice S1x1024 ![0, 0] sc slices_S8x1024_o0_0_S1x1024))
      (extractStridedSlice S128x128 ![0, 128] xc slices_S128x1024_o0_128_S128x128)
      (extractStridedSlice S128x128 ![128, 0] qc slices_S1024x128_o128_0_S128x128)
      (extractStridedSlice S1x1024 ![1, 0] (zeroRows zc) slices_S8x1024_o1_0_S1x1024)
      (extractStridedSlice S1x1024 ![1, 0] sc slices_S8x1024_o1_0_S1x1024))
      (extractStridedSlice S128x128 ![0, 256] xc slices_S128x1024_o0_256_S128x128)
      (extractStridedSlice S128x128 ![256, 0] qc slices_S1024x128_o256_0_S128x128)
      (extractStridedSlice S1x1024 ![2, 0] (zeroRows zc) slices_S8x1024_o2_0_S1x1024)
      (extractStridedSlice S1x1024 ![2, 0] sc slices_S8x1024_o2_0_S1x1024))
      (extractStridedSlice S128x128 ![0, 384] xc slices_S128x1024_o0_384_S128x128)
      (extractStridedSlice S128x128 ![384, 0] qc slices_S1024x128_o384_0_S128x128)
      (extractStridedSlice S1x1024 ![3, 0] (zeroRows zc) slices_S8x1024_o3_0_S1x1024)
      (extractStridedSlice S1x1024 ![3, 0] sc slices_S8x1024_o3_0_S1x1024))
      (extractStridedSlice S128x128 ![0, 512] xc slices_S128x1024_o0_512_S128x128)
      (extractStridedSlice S128x128 ![512, 0] qc slices_S1024x128_o512_0_S128x128)
      (extractStridedSlice S1x1024 ![4, 0] (zeroRows zc) slices_S8x1024_o4_0_S1x1024)
      (extractStridedSlice S1x1024 ![4, 0] sc slices_S8x1024_o4_0_S1x1024))
      (extractStridedSlice S128x128 ![0, 640] xc slices_S128x1024_o0_640_S128x128)
      (extractStridedSlice S128x128 ![640, 0] qc slices_S1024x128_o640_0_S128x128)
      (extractStridedSlice S1x1024 ![5, 0] (zeroRows zc) slices_S8x1024_o5_0_S1x1024)
      (extractStridedSlice S1x1024 ![5, 0] sc slices_S8x1024_o5_0_S1x1024))
      (extractStridedSlice S128x128 ![0, 768] xc slices_S128x1024_o0_768_S128x128)
      (extractStridedSlice S128x128 ![768, 0] qc slices_S1024x128_o768_0_S128x128)
      (extractStridedSlice S1x1024 ![6, 0] (zeroRows zc) slices_S8x1024_o6_0_S1x1024)
      (extractStridedSlice S1x1024 ![6, 0] sc slices_S8x1024_o6_0_S1x1024))
      (extractStridedSlice S128x128 ![0, 896] xc slices_S128x1024_o0_896_S128x128)
      (extractStridedSlice S128x128 ![896, 0] qc slices_S1024x128_o896_0_S128x128)
      (extractStridedSlice S1x1024 ![7, 0] (zeroRows zc) slices_S8x1024_o7_0_S1x1024)
      (extractStridedSlice S1x1024 ![7, 0] sc slices_S8x1024_o7_0_S1x1024)

/-- One trip's new accumulator from the four blocks the trip loads and the accumulator it finds, composed of the
    body's named pieces in the order the body stores them. -/
def tripPay (v16 : Vec F S128x1024 .bf16) (v19 : Vec F S1024x128 .i32) (v22 : Vec F S8x128 .i32) (v25 : Vec F S8x1024 .f32)
    (acc : Vec F S128x1024 .f32) : FVec F S128x1024 .f32 :=
  let v17 := k0_pay4 v16
  let v20 := k0_pay5 v19
  let v26 := k0_pay7 v25
  let v69 : FVec F S8x1024 .f32 := k0_pay14 (k0_pay6 v22) (k0_pay8 v22) (k0_pay9 v22) (k0_pay10 v22) (k0_pay11 v22) (k0_pay12 v22) (k0_pay13 v22) 12#32
  let a1 := k0_pay23 v26 v69 (k0_pay15 v17) (k0_pay16 v20) (k0_pay17 v20) (k0_pay18 v20) (k0_pay19 v20) (k0_pay20 v20) (k0_pay21 v20) (k0_pay22 v20) acc
  let a2 := k0_pay30 (k0_pay29 v26 v69 (k0_pay24 v17) (k0_pay25 v20) (k0_pay26 v20) (k0_pay27 v20) (k0_pay28 v20) 15#32 a1)
  let a3 := k0_pay41 v26 v69 (k0_pay31 v17) (k0_pay33 v20) (k0_pay34 v20) (k0_pay35 v20) (k0_pay36 v20) (k0_pay37 v20) (k0_pay38 v20) (k0_pay39 v20) (k0_pay40 v20) a2
  let a4 := k0_pay50 v26 v69 (k0_pay42 v17) (k0_pay43 v20) (k0_pay44 v20) (k0_pay45 v20) (k0_pay46 v20) (k0_pay47 v20) (k0_pay48 v20) (k0_pay49 v20) a3
  let a5 := k0_pay57 (k0_pay56 v26 v69 (k0_pay51 v17) (k0_pay52 v20) (k0_pay53 v20) (k0_pay54 v20) (k0_pay55 v20) 15#32 a4)
  let a6 := k0_pay68 v26 v69 (k0_pay58 v17) (k0_pay60 v20) (k0_pay61 v20) (k0_pay62 v20) (k0_pay63 v20) (k0_pay64 v20) (k0_pay65 v20) (k0_pay66 v20) (k0_pay67 v20) a5
  let a7 := k0_pay77 v26 v69 (k0_pay69 v17) (k0_pay70 v20) (k0_pay71 v20) (k0_pay72 v20) (k0_pay73 v20) (k0_pay74 v20) (k0_pay75 v20) (k0_pay76 v20) a6
  k0_pay2 (k0_pay83 v26 v69 (k0_pay78 v17) (k0_pay79 v20) (k0_pay80 v20) (k0_pay81 v20) (k0_pay82 v20) 15#32 a7)

end Cert.KernelIdeal.KV

end
-- ==== Proof.KTrip.lean ====
/-
  What the loop's trips leave in the accumulator buffer, read off the body's run: each trip is the eight group
  steps applied to the accumulator it finds, the blocks it loads being rectangles of the staged inputs.
-/
import proofs.«402201_j53455162966737_4_alg».proof.Proof.Gen.KernelIdeal.Frame
import proofs.«402201_j53455162966737_4_alg».proof.Proof.KDefs
import Idealize.ShloMosaic.Lib.Pipeline.Value

set_option maxRecDepth 16384
set_option synthInstance.maxSize 4096

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem zero_off2 : (![0, 0] : Fin 2 → ℕ) = fun _ => 0 := by
  funext a; fin_cases a <;> rfl

theorem mem_unit_zero {S : Shape} {off : Fin S.rank → ℕ} (h : off = fun _ => 0)
    (inb : ∀ a, off a + S.size a ≤ S.size a) (y : S.Idx) : y ∈ (Rect.unit off S.size inb).set := by
  subst h; show y ∈ (Rect.whole S).set; rw [Rect.set_whole]; exact Finset.mem_univ y

/-- Reading a buffer back after a list of stores whose last one covers the whole buffer gives that store's value. -/
theorem read_writes_cons_whole {Val : EltTy → Type} [∀ e, Nonempty (Val e)] {sig : RefSig} {κ : Kind} {sp : Space} {S : Shape} {e : EltTy}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, mem_unit_zero h inb y⟩), View.canon_cons_unit_zero h]

/-- What a trip leaves in the accumulator buffer, read back whole. -/
theorem tripL_read (𝒱 : Variants) (bd : Option 𝒱.V) (c : Dev nD) (i : grid0.Coords) (arg2 : Memref sig .tc .vmem S128x4096 .bf16) (harg2 : arg2.IsWhole) (arg3 : Memref sig .tc .vmem S4096x128 .i32) (harg3 : arg3.IsWhole) (arg4 : Memref sig .tc .vmem S32x128 .i32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole)
    (x0 : Vec F S128x4096 .bf16) (x1 : Vec F S4096x128 .i32) (x2 : Vec F S32x128 .i32) (x3 : Vec F S32x1024 .f32)
    (k : Fin k0_t1_loop.trips) (f : BufTy.Contents (Elt F) arg8.view.ty) :
    arg8.view.read (Elt F) (arg8.view.writes (Elt F) f
        (tripL_k0_t1 (F := F) 𝒱 c bd i arg2 harg2 arg3 harg3 arg4 harg4 arg5 harg5 arg6 harg6 arg7 harg7 arg8 harg8 (harg2.unread x0) (harg3.unread x1) (harg4.unread x2) (harg5.unread x3) k f))
      = tripPay (View.ld x0 (Rect.unit (k0_off1 k) S128x1024.size (k0_off1_inb k)))
          (View.ld x1 (Rect.unit (k0_off2 k) S1024x128.size (k0_off2_inb k)))
          (View.ld x2 (Rect.unit (k0_off3 k) S8x128.size (k0_off3_inb k)))
          (View.ld x3 (Rect.unit (k0_off4 k) S8x1024.size (k0_off4_inb k)))
          (arg8.view.read (Elt F) f) := by
  unfold tripL_k0_t1
  unfold trip_k0_t1
  dsimp only
  rw [read_writes_cons_whole (S := S128x1024) _ _ zero_off2]
  sl_unfold_run_names
  simp only [View.readCov_cons_toLoadRect, View.readAt_eq_ld, Memref.IsWhole.read_unread, View.ld_unit_zero (S := S128x1024) zero_off2]
  rfl

/-- The accumulator after the first `n` trips, from the contents `a0` it starts at: trip `n` loads columns
    `1024 n …` of the activation block, rows `1024 n …` of the packed weights, rows `8 n …` of the zero points and
    of the scales. -/
def accN (x0 : Vec F S128x4096 .bf16) (x1 : Vec F S4096x128 .i32) (x2 : Vec F S32x128 .i32) (x3 : Vec F S32x1024 .f32)
    (a0 : Vec F S128x1024 .f32) : ℕ → Vec F S128x1024 .f32
  | 0 => a0
  | n + 1 =>
    if h : n < k0_t1_loop.trips then
      tripPay (View.ld x0 (Rect.unit (k0_off1 ⟨n, h⟩) S128x1024.size (k0_off1_inb ⟨n, h⟩)))
        (View.ld x1 (Rect.unit (k0_off2 ⟨n, h⟩) S1024x128.size (k0_off2_inb ⟨n, h⟩)))
        (View.ld x2 (Rect.unit (k0_off3 ⟨n, h⟩) S8x128.size (k0_off3_inb ⟨n, h⟩)))
        (View.ld x3 (Rect.unit (k0_off4 ⟨n, h⟩) S8x1024.size (k0_off4_inb ⟨n, h⟩)))
        (accN x0 x1 x2 x3 a0 n)
    else accN x0 x1 x2 x3 a0 n

/-- What the first `n` trips leave in the accumulator buffer over the contents `G` at loop entry. -/
theorem pb_read (𝒱 : Variants) (bd : Option 𝒱.V) (c : Dev nD) (i : grid0.Coords) (arg2 : Memref sig .tc .vmem S128x4096 .bf16) (harg2 : arg2.IsWhole) (arg3 : Memref sig .tc .vmem S4096x128 .i32) (harg3 : arg3.IsWhole) (arg4 : Memref sig .tc .vmem S32x128 .i32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole)
    (x0 : Vec F S128x4096 .bf16) (x1 : Vec F S4096x128 .i32) (x2 : Vec F S32x128 .i32) (x3 : Vec F S32x1024 .f32)
    (G : BufTy.Contents (Elt F) arg8.view.ty) (n : ℕ) :
    arg8.view.read (Elt F) (arg8.view.writes (Elt F) G
        (pb_k0_t1 (F := F) 𝒱 c bd i arg2 harg2 arg3 harg3 arg4 harg4 arg5 harg5 arg6 harg6 arg7 harg7 arg8 harg8 (harg2.unread x0) (harg3.unread x1) (harg4.unread x2) (harg5.unread x3) G n))
      = accN x0 x1 x2 x3 (arg8.view.read (Elt F) G) n := by
  induction n with
  | zero => rfl
  | succ n ih =>
    rw [pb_k0_t1.eq_2]
    unfold pb_k0_t1Step
    by_cases h : n < k0_t1_loop.trips
    · rw [dif_pos h, View.writes_append, tripL_read, ih]
      show _ = accN x0 x1 x2 x3 _ (n + 1)
      rw [accN, dif_pos h]
    · rw [dif_neg h, ih]
      show _ = accN x0 x1 x2 x3 _ (n + 1)
      rw [accN, dif_neg h]

/-- The output block a grid point's body leaves: the bias row added to the accumulator after all the trips from zero. -/
theorem out0_A_5_eq (c : Dev nD) (i : grid0.Coords) (arg2 : Memref sig .tc .vmem S128x4096 .bf16) (harg2 : arg2.IsWhole) (arg3 : Memref sig .tc .vmem S4096x128 .i32) (harg3 : arg3.IsWhole) (arg4 : Memref sig .tc .vmem S32x128 .i32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (x0 : Vec F S128x4096 .bf16) (x1 : Vec F S4096x128 .i32) (x2 : Vec F S32x128 .i32) (x3 : Vec F S32x1024 .f32) (x4 : Vec F S1x1024 .f32) :
    out0_A_5 c i arg2 harg2 arg3 harg3 arg4 harg4 arg5 harg5 arg6 harg6 arg7 harg7 arg8 harg8 x0 x1 x2 x3 x4
      = k0_pay3 (accN x0 x1 x2 x3 (k0_pay1 (F := F)) k0_t1_loop.trips) x4 := by
  unfold out0_A_5
  unfold kernelRun0_A
  dsimp only
  rw [read_writes_cons_whole (S := S128x1024) _ _ zero_off2]
  unfold kernelRun0_A.sl.v5
  rw [View.writes_append, View.readAt_eq_ld, pb_read, View.ld_unit_zero (S := S128x1024) zero_off2]
  unfold kernelRun0_A.sl.HS0_1
  rw [read_writes_cons_whole (S := S128x1024) _ _ zero_off2]
  rw [View.readAt_eq_ld, Memref.IsWhole.read_unread, View.ld_unit_zero (S := S1x1024) zero_off2]

end Cert.KernelIdeal.KV
end
-- ==== Proof.SpecFacts.lean ====
/-
  Facts about the 4-bit fields of a packed word and about regrouping the sum over input rows.
-/
import proofs.«402201_j53455162966737_4_alg».proof.Proof.Spec

noncomputable section

open scoped BigOperators

namespace Cert.Awq

open Idealize.ShloMosaic Idealize.ShloMosaic.ValueIdx

/-! ## Facts about fields and sums (used by both sides) -/

/-- A field is a number from 0 to 15. -/
theorem nib_toNat_le (q : BitVec 32) (j : Fin 8) : (nib q j).toNat ≤ 15 := by
  -- the field is a bitwise "and" with 15, and `a &&& 15 ≤ 15`
  unfold nib IntOp.andi
  rw [BitVec.toNat_and]
  exact Nat.and_le_right

/-- A field read as a signed word is the field read unsigned: its top bit is clear since `2 * 15 < 2 ^ 32`. -/
theorem nib_toInt_eq_toNat (q : BitVec 32) (j : Fin 8) : (nib q j).toInt = ((nib q j).toNat : ℤ) := by
  have h := nib_toNat_le q j
  exact BitVec.toInt_eq_toNat_of_lt (by omega)

/-- Subtracting two fields as 32-bit words does not wrap: read signed, the difference is the difference. -/
theorem toInt_subi_nib (q z : BitVec 32) (j j' : Fin 8) :
    (IntOp.subi (nib q j) (nib z j')).toInt = (nib q j).toInt - (nib z j').toInt := by
  have hq := nib_toNat_le q j
  have hz := nib_toNat_le z j'
  unfold IntOp.subi
  -- the signed value of a word difference is the balanced remainder mod `2 ^ 32` of the signed difference;
  -- both fields lie in `[0, 15]`, so the difference lies in `[-15, 15]`, where the balanced remainder is the identity
  rw [BitVec.toInt_sub, nib_toInt_eq_toNat q j, nib_toInt_eq_toNat z j']
  apply Int.bmod_eq_of_le <;> omega

/-- The same as extended reals: converting the word difference is subtracting the converted fields. -/
theorem coe_toInt_subi_nib (q z : BitVec 32) (j j' : Fin 8) :
    (((IntOp.subi (nib q j) (nib z j')).toInt : ℝ) : EReal)
      = (((nib q j).toInt : ℝ) : EReal) - (((nib z j').toInt : ℝ) : EReal) := by
  -- both casts (integers into reals, reals into extended reals) commute with subtraction
  rw [toInt_subi_nib, Int.cast_sub, EReal.coe_sub]

/-- A sum over the 4096 input rows, regrouped as 32 groups of 128 consecutive rows. -/
theorem sum_rows_by_group (f : Fin 4096 → EReal) :
    ∑ k : Fin 4096, f k = ∑ g : Fin 32, ∑ j : Fin 128, f ⟨128 * g.val + j.val, by have := g.isLt; have := j.isLt; omega⟩ := by
  -- reindex along the bijection `(g, j) ↦ j + 128 * g` from `Fin 32 × Fin 128` onto `Fin 4096`,
  -- then split the sum over the product into an iterated sum
  calc ∑ k : Fin 4096, f k
      = ∑ p : Fin 32 × Fin 128, f (finProdFinEquiv (m := 32) (n := 128) p) :=
        (Equiv.sum_comp (finProdFinEquiv (m := 32) (n := 128)) f).symm
    _ = ∑ g : Fin 32, ∑ j : Fin 128, f (finProdFinEquiv (m := 32) (n := 128) (g, j)) :=
        Fintype.sum_prod_type _
    _ = _ := by
        refine Finset.sum_congr rfl (fun g _ => Finset.sum_congr rfl (fun j _ => ?_))
        congr 1
        apply Fin.ext
        simp only [finProdFinEquiv, Equiv.coe_fn_mk]
        omega

/-- A left-nested chain of additions starting from zero is the sum: `acc 0 = 0`, `acc (g+1) = acc g + s g`. -/
theorem chain_eq_sum (s : ℕ → EReal) (acc : ℕ → EReal) (h0 : acc 0 = 0) (hs : ∀ g, acc (g + 1) = acc g + s g) (n : ℕ) :
    acc n = ∑ g ∈ Finset.range n, s g := by
  -- induction on the length of the chain; the step peels the last term off the range sum
  induction n with
  | zero => simp [h0]
  | succ n ih => rw [hs, ih, Finset.sum_range_succ]

end Cert.Awq

end
-- ==== Proof.KUnpack.lean ====
/-
  The unpacked tiles read at an index: entry (r, c) of the unpacked tile is field `c % 8` of the packed word at
  (r, c / 8).
-/
import proofs.«402201_j53455162966737_4_alg».proof.Proof.KDefs
import proofs.«402201_j53455162966737_4_alg».proof.Proof.SpecFacts
import Idealize.ShloMosaic.Lib.ValueIdx
import Idealize.ShloMosaic.Lib.Pipeline.Value
import Idealize.ShloMosaic.Lib.ValueLayout

set_option synthInstance.maxSize 4096

noncomputable section

namespace Cert.KernelIdeal.KV

open Idealize.ShloMosaic Idealize.ShloMosaic.ValueIdx Cert.KernelIdeal Cert.KernelIdeal.Gen

/-! The unpacking lays the eight fields of every word side by side: field `k` of the word at (r, p), with a
    trailing unit axis, is piece `k` of a concatenation along the last axis of an [R, 128, 8] array, which is then
    read as [R, 1024] in row-major order. Row-major position (r, c) of [R, 1024] is position (r, c / 8, c % 8) of
    [R, 128, 8], since c = (c / 8) * 8 + c % 8; along the last axis, position c % 8 falls in piece c % 8 (each piece
    has extent one there) at offset zero; and piece k read at (r, p, 0) is the word at (r, p) shifted right by the
    k-th offset and masked to its low four bits. The argument is made once for any row count R and used at R = 128
    and R = 8. -/

section Generic

variable {R : Nat}

/-- One field of every word of an [R, 128] tile, with a trailing unit axis: the word shifted right by `s`, then its
    low four bits. -/
abbrev piece (q : IVec (⟨2, ![R, 128]⟩ : Shape) 32) (h1 : (⟨2, ![R, 128]⟩ : Shape).ShapeCasts ⟨3, ![R, 128, 1]⟩)
    (s : BitVec 32) : (s' : Shape) × (s'.Idx → BitVec 32) :=
  ⟨(⟨3, ![R, 128, 1]⟩ : Shape),
    shapeCast (⟨3, ![R, 128, 1]⟩ : Shape)
      (andi (shrsi q (broadcast (⟨2, ![R, 128]⟩ : Shape) s)) (broadcast (⟨2, ![R, 128]⟩ : Shape) 15#32)) h1⟩

/-- The eight fields, in the order of their bit offsets 0, 16, 4, 20, 8, 24, 12, 28. -/
abbrev pieces (q : IVec (⟨2, ![R, 128]⟩ : Shape) 32) (h1 : (⟨2, ![R, 128]⟩ : Shape).ShapeCasts ⟨3, ![R, 128, 1]⟩) :
    List ((s' : Shape) × (s'.Idx → BitVec 32)) :=
  [piece q h1 0#32, piece q h1 16#32, piece q h1 4#32, piece q h1 20#32,
   piece q h1 8#32, piece q h1 24#32, piece q h1 12#32, piece q h1 28#32]

/-- A piece read at (r, p, 0) is the word at (r, p), shifted and masked: adding a trailing unit axis does not move
    the row-major position, (r * 128 + p) * 1 + 0 = r * 128 + p, and the shift and the mask act index by index. -/
theorem piece_apply (q : IVec (⟨2, ![R, 128]⟩ : Shape) 32) (h1 : (⟨2, ![R, 128]⟩ : Shape).ShapeCasts ⟨3, ![R, 128, 1]⟩)
    (s : BitVec 32) (r : Fin R) (p : Fin 128) :
    (piece q h1 s).2 (ix3 r p (0 : Fin 1)) = IntOp.andi (IntOp.shrsi .vector (q (ix2 r p)) s) 15#32 := by
  show shapeCast (⟨3, ![R, 128, 1]⟩ : Shape)
      (andi (shrsi q (broadcast (⟨2, ![R, 128]⟩ : Shape) s)) (broadcast (⟨2, ![R, 128]⟩ : Shape) 15#32)) h1
      (ix3 r p (0 : Fin 1)) = _
  refine (shapeCast_apply _ h1 (ix3 r p (0 : Fin 1)) (ix2 r p) ?_).trans rfl
  rw [Shape.rowMajor_val_two, Shape.rowMajor_val_three]
  show r.val * 128 + p.val = (r.val * 128 + p.val) * 1 + 0
  omega

/-- The concatenation read at (r, c / 8, c % 8) when c % 8 is the literal `k`: the position along the last axis falls
    in piece `k` (the `k` pieces before it have extent one each) at offset zero, and that piece's shift is the
    `k`-th offset. -/
theorem field_case (q : IVec (⟨2, ![R, 128]⟩ : Shape) 32) (h1 : (⟨2, ![R, 128]⟩ : Shape).ShapeCasts ⟨3, ![R, 128, 1]⟩)
    (hc : Shape.Concatenates ((pieces q h1).map (·.1)) (⟨3, ![R, 128, 8]⟩ : Shape) 2)
    (r : Fin R) (c : Fin 1024) (hc8 : c.val / 8 < 128) (hm8 : c.val % 8 < 8)
    (k : Nat) (hk : k < 8) (s : BitVec 32)
    (hxk : (pieces q h1)[k]'hk = piece q h1 s)
    (hpre : ((((pieces q h1).take k).map (·.1)).map fun s' : Shape =>
        if h : s'.rank = (⟨3, ![R, 128, 8]⟩ : Shape).rank then s'.size ((2 : Fin (⟨3, ![R, 128, 8]⟩ : Shape).rank).cast h.symm) else 0).sum = k)
    (hs : Cert.Awq.shiftW ⟨k, hk⟩ = s) (h : c.val % 8 = k) :
    concatenate (⟨3, ![R, 128, 8]⟩ : Shape) 2 (pieces q h1) hc (ix3 r ⟨c.val / 8, hc8⟩ ⟨c.val % 8, hm8⟩)
      = Cert.Awq.nib (q (ix2 r ⟨c.val / 8, hc8⟩)) ⟨c.val % 8, hm8⟩ := by
  refine (concatenate_apply_piece (2 : Fin (⟨3, ![R, 128, 8]⟩ : Shape).rank) (pieces q h1) hc
    (ix3 r ⟨c.val / 8, hc8⟩ ⟨c.val % 8, hm8⟩) k hk _ _ hxk rfl k hpre (ix3 r ⟨c.val / 8, hc8⟩ (0 : Fin 1)) ?_ ?_).trans ?_
  · intro b hb
    match b with
    | ⟨0, _⟩ => rfl
    | ⟨1, _⟩ => rfl
    | ⟨2, _⟩ => exact absurd rfl hb
  · show k + 0 = c.val % 8
    omega
  · refine (piece_apply q h1 s r ⟨c.val / 8, hc8⟩).trans ?_
    have hj : (⟨c.val % 8, hm8⟩ : Fin 8) = ⟨k, hk⟩ := Fin.ext h
    rw [hj]
    unfold Cert.Awq.nib
    rw [hs]

/-- Entry (r, c) of the unpacked [R, 1024] tile is field `c % 8` of the packed word at (r, c / 8). -/
theorem unpack_apply (q : IVec (⟨2, ![R, 128]⟩ : Shape) 32) (h1 : (⟨2, ![R, 128]⟩ : Shape).ShapeCasts ⟨3, ![R, 128, 1]⟩)
    (hc : Shape.Concatenates ((pieces q h1).map (·.1)) (⟨3, ![R, 128, 8]⟩ : Shape) 2)
    (h2 : (⟨3, ![R, 128, 8]⟩ : Shape).ShapeCasts ⟨2, ![R, 1024]⟩) (r : Fin R) (c : Fin 1024) :
    shapeCast (⟨2, ![R, 1024]⟩ : Shape) (concatenate (⟨3, ![R, 128, 8]⟩ : Shape) 2 (pieces q h1) hc) h2 (ix2 r c)
      = Cert.Awq.nib (q (ix2 r ⟨c.val / 8, by have := c.isLt; omega⟩)) ⟨c.val % 8, by omega⟩ := by
  have hc8 : c.val / 8 < 128 := by have := c.isLt; omega
  have hm8 : c.val % 8 < 8 := by omega
  refine (shapeCast_apply _ h2 (ix2 r c) (ix3 r ⟨c.val / 8, hc8⟩ ⟨c.val % 8, hm8⟩) ?_).trans ?_
  · rw [Shape.rowMajor_val_three, Shape.rowMajor_val_two]
    show (r.val * 128 + c.val / 8) * 8 + c.val % 8 = r.val * 1024 + c.val
    omega
  · have hcase : c.val % 8 = 0 ∨ c.val % 8 = 1 ∨ c.val % 8 = 2 ∨ c.val % 8 = 3
        ∨ c.val % 8 = 4 ∨ c.val % 8 = 5 ∨ c.val % 8 = 6 ∨ c.val % 8 = 7 := by omega
    rcases hcase with h | h | h | h | h | h | h | h
    · exact field_case q h1 hc r c hc8 hm8 0 (by decide) 0#32 rfl rfl rfl h
    · exact field_case q h1 hc r c hc8 hm8 1 (by decide) 16#32 rfl rfl rfl h
    · exact field_case q h1 hc r c hc8 hm8 2 (by decide) 4#32 rfl rfl rfl h
    · exact field_case q h1 hc r c hc8 hm8 3 (by decide) 20#32 rfl rfl rfl h
    · exact field_case q h1 hc r c hc8 hm8 4 (by decide) 8#32 rfl rfl rfl h
    · exact field_case q h1 hc r c hc8 hm8 5 (by decide) 24#32 rfl rfl rfl h
    · exact field_case q h1 hc r c hc8 hm8 6 (by decide) 12#32 rfl rfl rfl h
    · exact field_case q h1 hc r c hc8 hm8 7 (by decide) 28#32 rfl rfl rfl h

end Generic

/-- Entry (r, c) of the unpacked [128,1024] tile is field `c % 8` of the packed word at (r, c / 8). -/
theorem unpackTile_apply (q : IVec S128x128 32) (r : Fin 128) (c : Fin 1024) :
    unpackTile q (ix2 r c) = Cert.Awq.nib (q (ix2 r ⟨c.val / 8, by have := c.isLt; omega⟩)) ⟨c.val % 8, by omega⟩ := by
  unfold unpackTile
  exact unpack_apply (R := 128) q shapeCasts_S128x128_S128x128x1
    concatenates_S128x128x1_S128x128x1_S128x128x1_S128x128x1_S128x128x1_S128x128x1_S128x128x1_S128x128x1_S128x128x8_d2
    shapeCasts_S128x128x8_S128x1024 r c

/-- Entry (g, c) of the unpacked [8,1024] zero-point rows is field `c % 8` of the packed word at (g, c / 8). -/
theorem unpackRows_apply (q : IVec S8x128 32) (g : Fin 8) (c : Fin 1024) :
    unpackRows q (ix2 g c) = Cert.Awq.nib (q (ix2 g ⟨c.val / 8, by have := c.isLt; omega⟩)) ⟨c.val % 8, by omega⟩ := by
  unfold unpackRows
  exact unpack_apply (R := 8) q shapeCasts_S8x128_S8x128x1
    concatenates_S8x128x1_S8x128x1_S8x128x1_S8x128x1_S8x128x1_S8x128x1_S8x128x1_S8x128x1_S8x128x8_d2
    shapeCasts_S8x128x8_S8x1024 g c

end Cert.KernelIdeal.KV

end
-- ==== Proof.KValue.lean ====
/-
  One trip of the loop over input rows, read at an entry, at the ideal values.

  A trip takes 1024 input rows in eight groups of 128.  At entry (r, c) group `g` adds
  `∑ⱼ x[r, 128 g + j] · (field(qw[128 g + j, c / 8], c % 8) − field(qz[g, c / 8], c % 8)) · scale[g, c]`,
  and the eight groups together are row `r` of the trip's activations against column `c` of its dequantised
  weights: `trip(acc)[r, c] = acc[r, c] + ∑ₖ x[r, k] · w[k, c]` over the trip's 1024 rows.
-/
import proofs.«402201_j53455162966737_4_alg».proof.Proof.KUnpack
import proofs.«402201_j53455162966737_4_alg».proof.Proof.SpecG
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

open scoped BigOperators

namespace Cert.KernelIdeal.KV

open Idealize.ShloMosaic Idealize.ShloMosaic.ValueIdx Idealize.SL.Sem Cert.KernelIdeal Cert.KernelIdeal.Gen

/-! ## The tile product read at an entry -/

/-- The operand indices of the tile product at output entry `j` and shared-axis position `k`: the left operand is read
    at (row of `j`, `k`), the right operand at (`k`, column of `j`). -/
theorem lhs_dot_0 (j : S128x1024.Idx) (k : dot_S128x128_S128x1024_S128x1024_1_0_0_1_n_n.contr.Idx) :
    (dot_S128x128_S128x1024_S128x1024_1_0_0_1_n_n.lhsIdx j k 0).val = (j 0).val := rfl

theorem lhs_dot_1 (j : S128x1024.Idx) (k : dot_S128x128_S128x1024_S128x1024_1_0_0_1_n_n.contr.Idx) :
    (dot_S128x128_S128x1024_S128x1024_1_0_0_1_n_n.lhsIdx j k 1).val = (k ⟨0, by decide⟩).val := rfl

theorem rhs_dot_0 (j : S128x1024.Idx) (k : dot_S128x128_S128x1024_S128x1024_1_0_0_1_n_n.contr.Idx) :
    (dot_S128x128_S128x1024_S128x1024_1_0_0_1_n_n.rhsIdx j k 0).val = (k ⟨0, by decide⟩).val := rfl

theorem rhs_dot_1 (j : S128x1024.Idx) (k : dot_S128x128_S128x1024_S128x1024_1_0_0_1_n_n.contr.Idx) :
    (dot_S128x128_S128x1024_S128x1024_1_0_0_1_n_n.rhsIdx j k 1).val = (j 1).val := rfl

/-- Entry (r, c) of a [128,128] tile times a [128,1024] tile, accumulated into zero: the sum over the shared axis. -/
theorem matmul_tile_apply (A : FVec Ideal S128x128 .bf16) (B : FVec Ideal S128x1024 .bf16) (r : Fin 128) (c : Fin 1024) :
    matmul dot_S128x128_S128x1024_S128x1024_1_0_0_1_n_n none A B (constant (F := Ideal) S128x1024 .f32 0x00000000#32) (ix2 r c)
      = ∑ j : Fin 128, A (ix2 r j) * B (ix2 j c) := by
  simp only [matmul]
  rw [Ideal.matmul_constant_zero_apply,
    ← Equiv.sum_comp (contrEquiv1 dot_S128x128_S128x1024_S128x1024_1_0_0_1_n_n 128 rfl rfl).symm]
  refine Finset.sum_congr rfl fun j _ => ?_
  have cj := contrEquiv1_symm_val dot_S128x128_S128x1024_S128x1024_1_0_0_1_n_n 128 rfl rfl j
  have l2 : dot_S128x128_S128x1024_S128x1024_1_0_0_1_n_n.lhsIdx (ix2 r c)
      ((contrEquiv1 dot_S128x128_S128x1024_S128x1024_1_0_0_1_n_n 128 rfl rfl).symm j) = ix2 r j := by
    funext ax; apply Fin.ext
    match ax with
    | ⟨0, _⟩ => exact lhs_dot_0 _ _
    | ⟨1, _⟩ => exact (lhs_dot_1 _ _).trans cj
  have r2 : dot_S128x128_S128x1024_S128x1024_1_0_0_1_n_n.rhsIdx (ix2 r c)
      ((contrEquiv1 dot_S128x128_S128x1024_S128x1024_1_0_0_1_n_n 128 rfl rfl).symm j) = ix2 j c := by
    funext ax; apply Fin.ext
    match ax with
    | ⟨0, _⟩ => exact (rhs_dot_0 _ _).trans cj
    | ⟨1, _⟩ => exact rhs_dot_1 _ _
  rw [l2, r2]

/-! ## One group step read at an entry -/

/-- One group step at entry (r, c): the accumulator plus, over the tile's 128 rows, activation times
    `(field − zero point) · scale`. -/
theorem groupStep_apply (acc : FVec Ideal S128x1024 .f32) (xs : FVec Ideal S128x128 .bf16) (q : IVec S128x128 32)
    (z s : FVec Ideal S1x1024 .f32) (r : Fin 128) (c : Fin 1024) :
    groupStep acc xs q z s (ix2 r c)
      = acc (ix2 r c) + ∑ j : Fin 128, xs (ix2 r j) *
          (((((Cert.Awq.nib (q (ix2 j ⟨c.val / 8, by have := c.isLt; omega⟩)) ⟨c.val % 8, by omega⟩).toInt : ℝ) : EReal)
              - z (ix2 (0 : Fin 1) c)) * s (ix2 (0 : Fin 1) c)) := by
  unfold groupStep
  rw [addf_apply, matmul_tile_apply]
  refine congrArg (acc (ix2 r c) + ·) (Finset.sum_congr rfl fun j _ => ?_)
  rw [truncf_apply, mulf_apply, subf_apply, sitofp_apply, unpackTile_apply,
    broadcastTo_1b_ab_apply, broadcastTo_1b_ab_apply]
  rfl

/-- A zero point as a float, at entry (g, c): field `c % 8` of the packed word at (g, c / 8), read signed. -/
theorem zeroRows_apply (zc : IVec S8x128 32) (g : Fin 8) (c : Fin 1024) :
    zeroRows (F := Ideal) zc (ix2 g c)
      = (((Cert.Awq.nib (zc (ix2 g ⟨c.val / 8, by have := c.isLt; omega⟩)) ⟨c.val % 8, by omega⟩).toInt : ℝ) : EReal) := by
  unfold zeroRows
  rw [sitofp_apply, unpackRows_apply]
  rfl

/-! ## One group of a trip -/

/-- What group `g` of a trip adds to entry (r, c): over the group's 128 input rows `k = 128 g + j`, activation
    times dequantised weight. -/
def gsum (xc : FVec Ideal S128x1024 .bf16) (qc : IVec S1024x128 32) (zc : IVec S8x128 32) (sc : FVec Ideal S8x1024 .f32)
    (r : Fin 128) (c : Fin 1024) (g : Fin 8) : EReal :=
  ∑ j : Fin 128, xc (ix2 r ⟨128 * g.val + j.val, by have := g.isLt; have := j.isLt; omega⟩) *
    Cert.Awq.wgtG (K := 1024) (G := 8) (P := 128) (N := 1024) (by decide) (by decide) qc zc sc
      ⟨128 * g.val + j.val, by have := g.isLt; have := j.isLt; omega⟩ c

/-- A group step on the slices of group `g` (columns `128 g …` of the activations, rows `128 g …` of the packed
    weights, row `g` of the zero points and of the scales) adds `gsum … g`. The offsets are naturals `ox`, `og`
    with `ox = 128 g` and `og = g`. -/
theorem groupStep_slices_apply (g : Fin 8) (ox : ℕ) (hox : ox = 128 * g.val) (og : ℕ) (hog : og = g.val)
    (xc : FVec Ideal S128x1024 .bf16) (qc : IVec S1024x128 32) (zc : IVec S8x128 32) (sc : FVec Ideal S8x1024 .f32)
    (acc : FVec Ideal S128x1024 .f32)
    (hx : S128x1024.Slices ![0, ox] S128x128) (hq : S1024x128.Slices ![ox, 0] S128x128)
    (hz : S8x1024.Slices ![og, 0] S1x1024) (hs : S8x1024.Slices ![og, 0] S1x1024) (r : Fin 128) (c : Fin 1024) :
    groupStep acc (extractStridedSlice S128x128 ![0, ox] xc hx) (extractStridedSlice S128x128 ![ox, 0] qc hq)
        (extractStridedSlice S1x1024 ![og, 0] (zeroRows zc) hz) (extractStridedSlice S1x1024 ![og, 0] sc hs) (ix2 r c)
      = acc (ix2 r c) + gsum xc qc zc sc r c g := by
  subst hox hog
  rw [groupStep_apply]
  unfold gsum
  refine congrArg (acc (ix2 r c) + ·) (Finset.sum_congr rfl fun j _ => ?_)
  have hg := g.isLt
  have hj := j.isLt
  have hc := c.isLt
  rw [slice2_axis1_apply (128 * g.val) xc hx r j ⟨128 * g.val + j.val, by omega⟩ rfl,
    slice2_axis0_apply (128 * g.val) qc hq j ⟨c.val / 8, by omega⟩ ⟨128 * g.val + j.val, by omega⟩ rfl,
    slice2_axis0_apply g.val (zeroRows zc) hz (0 : Fin 1) c g (by simp),
    slice2_axis0_apply g.val sc hs (0 : Fin 1) c g (by simp),
    zeroRows_apply]
  unfold Cert.Awq.wgtG Cert.Awq.wval
  have e : (⟨(128 * g.val + j.val) / 128, by omega⟩ : Fin 8) = g := Fin.ext (by show (128 * g.val + j.val) / 128 = g.val; omega)
  simp only [e]

/-! ## One trip read at an entry -/

/-- One trip at entry (r, c): the accumulator plus the eight groups' contributions. -/
theorem tripFn_apply (xc : FVec Ideal S128x1024 .bf16) (qc : IVec S1024x128 32) (zc : IVec S8x128 32)
    (sc : FVec Ideal S8x1024 .f32) (acc : FVec Ideal S128x1024 .f32) (r : Fin 128) (c : Fin 1024) :
    tripFn xc qc zc sc acc (ix2 r c) = acc (ix2 r c) + ∑ g : Fin 8, gsum xc qc zc sc r c g := by
  unfold tripFn
  rw [groupStep_slices_apply 7 896 rfl 7 rfl, groupStep_slices_apply 6 768 rfl 6 rfl,
    groupStep_slices_apply 5 640 rfl 5 rfl, groupStep_slices_apply 4 512 rfl 4 rfl,
    groupStep_slices_apply 3 384 rfl 3 rfl, groupStep_slices_apply 2 256 rfl 2 rfl,
    groupStep_slices_apply 1 128 rfl 1 rfl, groupStep_slices_apply 0 0 rfl 0 rfl,
    Fin.sum_univ_eight]
  simp only [add_assoc]

/-! ## The trip as the body names it -/

/-- The trip composed of the body's named pieces is `tripFn`: the pieces are the same operations cut at other
    places, and a cast of an array to its own shape is the identity. The casts of the four loaded blocks are
    removed first, in the pieces that slice and shift them; then the pieces that unpack, dequantise and
    multiply are opened. -/
theorem tripPay_eq_tripFn {F : FTy → Type} [FloatOps F] (v16 : Vec F S128x1024 .bf16) (v19 : Vec F S1024x128 .i32)
    (v22 : Vec F S8x128 .i32) (v25 : Vec F S8x1024 .f32) (acc : Vec F S128x1024 .f32) :
    tripPay (F := F) v16 v19 v22 v25 acc = tripFn (F := F) v16 v19 v22 v25 acc := by
  unfold tripPay
  simp only [k0_pay4, k0_pay5, k0_pay6, k0_pay7, k0_pay8, k0_pay9, k0_pay10, k0_pay11, k0_pay12, k0_pay13,
    k0_pay15, k0_pay16, k0_pay17, k0_pay18, k0_pay19, k0_pay20, k0_pay21, k0_pay22, k0_pay24, k0_pay25,
    k0_pay26, k0_pay27, k0_pay28, k0_pay31, k0_pay32, k0_pay33, k0_pay34, k0_pay35, k0_pay36, k0_pay37,
    k0_pay38, k0_pay39, k0_pay40, k0_pay42, k0_pay43, k0_pay44, k0_pay45, k0_pay46, k0_pay47, k0_pay48,
    k0_pay49, k0_pay51, k0_pay52, k0_pay53, k0_pay54, k0_pay55, k0_pay58, k0_pay59, k0_pay60, k0_pay61,
    k0_pay62, k0_pay63, k0_pay64, k0_pay65, k0_pay66, k0_pay67, k0_pay69, k0_pay70, k0_pay71, k0_pay72,
    k0_pay73, k0_pay74, k0_pay75, k0_pay76, k0_pay78, k0_pay79, k0_pay80, k0_pay81, k0_pay82,
    shapeCast_self]
  unfold tripFn groupStep zeroRows unpackTile unpackRows
  simp only [k0_pay2, k0_pay14, k0_pay23, k0_pay29, k0_pay30, k0_pay41, k0_pay50, k0_pay56, k0_pay57, k0_pay68,
    k0_pay77, k0_pay83,
    shapeCast_self]

/-! ## One trip against the product over its 1024 input rows -/

/-- A sum over 1024 input rows, regrouped as 8 groups of 128 consecutive rows. -/
theorem sum_1024_by_group (f : Fin 1024 → EReal) :
    ∑ k : Fin 1024, f k
      = ∑ g : Fin 8, ∑ j : Fin 128, f ⟨128 * g.val + j.val, by have := g.isLt; have := j.isLt; omega⟩ := by
  -- reindex along the bijection `(g, j) ↦ j + 128 * g` from `Fin 8 × Fin 128` onto `Fin 1024`,
  -- then split the sum over the product into an iterated sum
  calc ∑ k : Fin 1024, f k
      = ∑ p : Fin 8 × Fin 128, f (finProdFinEquiv (m := 8) (n := 128) p) :=
        (Equiv.sum_comp (finProdFinEquiv (m := 8) (n := 128)) f).symm
    _ = ∑ g : Fin 8, ∑ j : Fin 128, f (finProdFinEquiv (m := 8) (n := 128) (g, j)) :=
        Fintype.sum_prod_type _
    _ = _ := by
        refine Finset.sum_congr rfl (fun g _ => Finset.sum_congr rfl (fun j _ => ?_))
        congr 1
        apply Fin.ext
        simp only [finProdFinEquiv, Equiv.coe_fn_mk]
        omega

/-- One trip at entry (r, c): the accumulator there plus row `r` of the trip's activations against column `c`
    of the trip's dequantised weights. -/
theorem tripPay_apply (v16 : Vec Ideal S128x1024 .bf16) (v19 : Vec Ideal S1024x128 .i32) (v22 : Vec Ideal S8x128 .i32)
    (v25 : Vec Ideal S8x1024 .f32) (acc : Vec Ideal S128x1024 .f32) (r : Fin 128) (c : Fin 1024) :
    tripPay (F := Ideal) v16 v19 v22 v25 acc (ix2 r c)
      = acc (ix2 r c) + Cert.Awq.dotG (M := 128) (K := 1024) (G := 8) (P := 128) (N := 1024) (by decide) (by decide)
          v16 v19 v22 v25 r c := by
  rw [tripPay_eq_tripFn, tripFn_apply]
  refine congrArg (acc (ix2 r c) + ·) ?_
  unfold Cert.Awq.dotG gsum
  exact (sum_1024_by_group (fun k => v16 (ix2 r k) *
    Cert.Awq.wgtG (K := 1024) (G := 8) (P := 128) (N := 1024) (by decide) (by decide) v19 v22 v25 k c)).symm

end Cert.KernelIdeal.KV

end
-- ==== Proof.KBlockFn.lean ====
/-
  What one grid point's body leaves in its output block, as a function of the five input blocks: four trips of
  eight group steps from the zero accumulator, then the bias row — the blocks' row-by-column product plus the bias.
  Trip `n` contributes the input rows `1024 n … 1024 n + 1023`; the four contributions, added in order from zero,
  are the sum over all 4096 input rows.
-/
import proofs.«402201_j53455162966737_4_alg».proof.Proof.KTrip
import proofs.«402201_j53455162966737_4_alg».proof.Proof.KValue
import proofs.«402201_j53455162966737_4_alg».proof.Proof.SpecG
import Idealize.ShloMosaic.Lib.ValueIdx
import Idealize.ShloMosaic.Lib.Pipeline.Value
import Idealize.ShloMosaic.PureOps.Ideal.Laws

set_option maxRecDepth 16384
set_option synthInstance.maxSize 4096

noncomputable section

open scoped BigOperators

namespace Cert.KernelIdeal.KV

open Idealize.ShloMosaic Idealize.ShloMosaic.ValueIdx Idealize.ShloMosaic.TcCoe Idealize.SL.Sem Cert.KernelIdeal Cert.KernelIdeal.Gen

/-- The loop makes four trips. -/
theorem trips_eq : k0_t1_loop.trips = 4 := by decide

/-- The accumulator after one more trip. -/
theorem accN_succ {F : FTy → Type} [FloatOps F] (x0 : Vec F S128x4096 .bf16) (x1 : Vec F S4096x128 .i32) (x2 : Vec F S32x128 .i32)
    (x3 : Vec F S32x1024 .f32) (a0 : Vec F S128x1024 .f32) (n : ℕ) (h : n < k0_t1_loop.trips) :
    accN x0 x1 x2 x3 a0 (n + 1)
      = tripPay (View.ld x0 (Rect.unit (k0_off1 ⟨n, h⟩) S128x1024.size (k0_off1_inb ⟨n, h⟩)))
          (View.ld x1 (Rect.unit (k0_off2 ⟨n, h⟩) S1024x128.size (k0_off2_inb ⟨n, h⟩)))
          (View.ld x2 (Rect.unit (k0_off3 ⟨n, h⟩) S8x128.size (k0_off3_inb ⟨n, h⟩)))
          (View.ld x3 (Rect.unit (k0_off4 ⟨n, h⟩) S8x1024.size (k0_off4_inb ⟨n, h⟩)))
          (accN x0 x1 x2 x3 a0 n) := by
  rw [accN, dif_pos h]

/-- Trip `n`'s block of the activations: columns `1024 n …`. -/
theorem ld_x0 (x0 : Vec Ideal S128x4096 .bf16) (n : ℕ) (h : n < k0_t1_loop.trips) (r : Fin 128) (j : Fin 1024) :
    View.ld x0 (Rect.unit (k0_off1 ⟨n, h⟩) S128x1024.size (k0_off1_inb ⟨n, h⟩)) (ix2 r j)
      = x0 (ix2 r ⟨1024 * n + j.val, by have := trips_eq; have := j.isLt; omega⟩) := by
  show x0 _ = x0 _
  congr 1
  funext a
  apply Fin.ext
  have e := k0_off1_eq ⟨n, h⟩
  match a with
  | ⟨0, _⟩ => show k0_off1 ⟨n, h⟩ 0 + 1 * r.val = r.val; rw [e]; simp
  | ⟨1, _⟩ => show k0_off1 ⟨n, h⟩ 1 + 1 * j.val = 1024 * n + j.val; rw [e]; simp

/-- Trip `n`'s block of the packed weights: rows `1024 n …`. -/
theorem ld_x1 (x1 : Vec Ideal S4096x128 .i32) (n : ℕ) (h : n < k0_t1_loop.trips) (k : Fin 1024) (p : Fin 128) :
    View.ld x1 (Rect.unit (k0_off2 ⟨n, h⟩) S1024x128.size (k0_off2_inb ⟨n, h⟩)) (ix2 k p)
      = x1 (ix2 ⟨1024 * n + k.val, by have := trips_eq; have := k.isLt; omega⟩ p) := by
  show x1 _ = x1 _
  congr 1
  funext a
  apply Fin.ext
  have e := k0_off2_eq ⟨n, h⟩
  match a with
  | ⟨0, _⟩ => show k0_off2 ⟨n, h⟩ 0 + 1 * k.val = 1024 * n + k.val; rw [e]; simp
  | ⟨1, _⟩ => show k0_off2 ⟨n, h⟩ 1 + 1 * p.val = p.val; rw [e]; simp

/-- Trip `n`'s block of the packed zero points: rows `8 n …`. -/
theorem ld_x2 (x2 : Vec Ideal S32x128 .i32) (n : ℕ) (h : n < k0_t1_loop.trips) (g : Fin 8) (p : Fin 128) :
    View.ld x2 (Rect.unit (k0_off3 ⟨n, h⟩) S8x128.size (k0_off3_inb ⟨n, h⟩)) (ix2 g p)
      = x2 (ix2 ⟨8 * n + g.val, by have := trips_eq; have := g.isLt; omega⟩ p) := by
  show x2 _ = x2 _
  congr 1
  funext a
  apply Fin.ext
  have e := k0_off3_eq ⟨n, h⟩
  match a with
  | ⟨0, _⟩ => show k0_off3 ⟨n, h⟩ 0 + 1 * g.val = 8 * n + g.val; rw [e]; simp
  | ⟨1, _⟩ => show k0_off3 ⟨n, h⟩ 1 + 1 * p.val = p.val; rw [e]; simp

/-- Trip `n`'s block of the scales: rows `8 n …`. -/
theorem ld_x3 (x3 : Vec Ideal S32x1024 .f32) (n : ℕ) (h : n < k0_t1_loop.trips) (g : Fin 8) (cc : Fin 1024) :
    View.ld x3 (Rect.unit (k0_off4 ⟨n, h⟩) S8x1024.size (k0_off4_inb ⟨n, h⟩)) (ix2 g cc)
      = x3 (ix2 ⟨8 * n + g.val, by have := trips_eq; have := g.isLt; omega⟩ cc) := by
  show x3 _ = x3 _
  congr 1
  funext a
  apply Fin.ext
  have e := k0_off4_eq ⟨n, h⟩
  match a with
  | ⟨0, _⟩ => show k0_off4 ⟨n, h⟩ 0 + 1 * g.val = 8 * n + g.val; rw [e]; simp
  | ⟨1, _⟩ => show k0_off4 ⟨n, h⟩ 1 + 1 * cc.val = cc.val; rw [e]; simp

/-- One trip's contribution at (r, cc): the product over the trip's 1024 input rows, as rows `1024 n + k'` of the
    whole blocks. -/
theorem trip_dot (x0 : Vec Ideal S128x4096 .bf16) (x1 : Vec Ideal S4096x128 .i32) (x2 : Vec Ideal S32x128 .i32)
    (x3 : Vec Ideal S32x1024 .f32) (n : ℕ) (h : n < k0_t1_loop.trips) (r : Fin 128) (cc : Fin 1024) :
    Cert.Awq.dotG (M := 128) (K := 1024) (G := 8) (P := 128) (N := 1024) (by decide) (by decide)
        (View.ld x0 (Rect.unit (k0_off1 ⟨n, h⟩) S128x1024.size (k0_off1_inb ⟨n, h⟩)))
        (View.ld x1 (Rect.unit (k0_off2 ⟨n, h⟩) S1024x128.size (k0_off2_inb ⟨n, h⟩)))
        (View.ld x2 (Rect.unit (k0_off3 ⟨n, h⟩) S8x128.size (k0_off3_inb ⟨n, h⟩)))
        (View.ld x3 (Rect.unit (k0_off4 ⟨n, h⟩) S8x1024.size (k0_off4_inb ⟨n, h⟩))) r cc
      = ∑ k' : Fin 1024, x0 (ix2 r ⟨1024 * n + k'.val, by have := trips_eq; have := k'.isLt; omega⟩)
          * Cert.Awq.wgtG (K := 4096) (G := 32) (P := 128) (N := 1024) (by decide) (by decide) x1 x2 x3
              ⟨1024 * n + k'.val, by have := trips_eq; have := k'.isLt; omega⟩ cc := by
  unfold Cert.Awq.dotG Cert.Awq.wgtG
  refine Finset.sum_congr rfl fun k' _ => ?_
  rw [ld_x0, ld_x1, ld_x2, ld_x3]
  have hk : (1024 * n + k'.val) / 128 = 8 * n + k'.val / 128 := by omega
  congr 2
  · congr 2; exact Fin.ext hk.symm
  · congr 2; exact Fin.ext hk.symm

/-- The sum over the 4096 input rows, regrouped as four runs of 1024 consecutive rows. -/
theorem sum_rows_by_trip (f : Fin 4096 → EReal) :
    ∑ k : Fin 4096, f k = ∑ n : Fin 4, ∑ k' : Fin 1024, f ⟨1024 * n.val + k'.val, by have := n.isLt; have := k'.isLt; omega⟩ := by
  calc ∑ k : Fin 4096, f k
      = ∑ p : Fin 4 × Fin 1024, f (finProdFinEquiv (m := 4) (n := 1024) p) :=
        (Equiv.sum_comp (finProdFinEquiv (m := 4) (n := 1024)) f).symm
    _ = ∑ n : Fin 4, ∑ k' : Fin 1024, f (finProdFinEquiv (m := 4) (n := 1024) (n, k')) :=
        Fintype.sum_prod_type _
    _ = _ := by
        refine Finset.sum_congr rfl (fun n _ => Finset.sum_congr rfl (fun k' _ => ?_))
        congr 1
        apply Fin.ext
        simp only [finProdFinEquiv, Equiv.coe_fn_mk]
        omega

/-- The zero accumulator the body starts from. -/
theorem pay1_apply (y : S128x1024.Idx) : k0_pay1 (F := Ideal) y = 0 := by
  unfold k0_pay1
  rw [shapeCast_self]
  show Ideal.ofBits .f32 0x00000000#32 = 0
  exact Ideal.ofBits_zero_f32

/-- The closing addition: the bias row added to every row of the accumulator. -/
theorem pay3_apply (v5 : Vec Ideal S128x1024 .f32) (v6 : Vec Ideal S1x1024 .f32) (r : Fin 128) (cc : Fin 1024) :
    k0_pay3 (F := Ideal) v5 v6 (ix2 r cc) = v5 (ix2 r cc) + v6 (ix2 0 cc) := by
  unfold k0_pay3
  rw [shapeCast_self]
  show v5 (ix2 r cc) + broadcastTo S128x1024 v6 broadcasts_S1x1024_S128x1024 (ix2 r cc) = _
  rw [broadcastTo_apply v6 broadcasts_S1x1024_S128x1024 (ix2 r cc) (ix2 0 cc) (fun a => by
    match a with
    | ⟨0, _⟩ => rfl
    | ⟨1, _⟩ => rfl)]

/-- The output block at (r, cc): row `r` of the activation block against column `cc` of the dequantised weight
    blocks, plus the bias block's entry. -/
theorem out0_A_5_apply (c : Dev nD) (i : grid0.Coords) (arg2 : Memref sig .tc .vmem S128x4096 .bf16) (harg2 : arg2.IsWhole) (arg3 : Memref sig .tc .vmem S4096x128 .i32) (harg3 : arg3.IsWhole) (arg4 : Memref sig .tc .vmem S32x128 .i32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole)
    (x0 : Vec Ideal S128x4096 .bf16) (x1 : Vec Ideal S4096x128 .i32) (x2 : Vec Ideal S32x128 .i32) (x3 : Vec Ideal S32x1024 .f32)
    (x4 : Vec Ideal S1x1024 .f32) (r : Fin 128) (cc : Fin 1024) :
    out0_A_5 (F := Ideal) c i arg2 harg2 arg3 harg3 arg4 harg4 arg5 harg5 arg6 harg6 arg7 harg7 arg8 harg8 x0 x1 x2 x3 x4 (ix2 r cc)
      = Cert.Awq.dotG (M := 128) (K := 4096) (G := 32) (P := 128) (N := 1024) (by decide) (by decide) x0 x1 x2 x3 r cc
        + x4 (ix2 0 cc) := by
  have h0 : 0 < k0_t1_loop.trips := by rw [trips_eq]; omega
  have h1 : 1 < k0_t1_loop.trips := by rw [trips_eq]; omega
  have h2 : 2 < k0_t1_loop.trips := by rw [trips_eq]; omega
  have h3 : 3 < k0_t1_loop.trips := by rw [trips_eq]; omega
  rw [out0_A_5_eq, pay3_apply]
  congr 1
  have e4 : accN x0 x1 x2 x3 (k0_pay1 (F := Ideal)) k0_t1_loop.trips = accN x0 x1 x2 x3 (k0_pay1 (F := Ideal)) (3 + 1) := by
    rw [trips_eq]
  rw [e4, accN_succ _ _ _ _ _ 3 h3, tripPay_apply, accN_succ _ _ _ _ _ 2 h2, tripPay_apply,
    accN_succ _ _ _ _ _ 1 h1, tripPay_apply, accN_succ _ _ _ _ _ 0 h0, tripPay_apply]
  rw [show accN x0 x1 x2 x3 (k0_pay1 (F := Ideal)) 0 = k0_pay1 (F := Ideal) from rfl, pay1_apply, zero_add]
  rw [trip_dot, trip_dot, trip_dot, trip_dot]
  unfold Cert.Awq.dotG
  rw [sum_rows_by_trip, Fin.sum_univ_four]
  rfl

end Cert.KernelIdeal.KV

end
-- ==== Proof.KBlocks.lean ====
/-
  From blocks to the array: what each grid point writes back is its block of one whole-array function, the
  padded result `GP`, and the 64 × 11 output blocks cover the output array, so the array ends holding `GP`.
-/
import proofs.«402201_j53455162966737_4_alg».proof.Proof.KGlobal
import proofs.«402201_j53455162966737_4_alg».proof.Proof.KBlockFn
import Idealize.ShloMosaic.Lib.ValueIdx
import Idealize.ShloMosaic.Lib.Pipeline.Value

set_option maxRecDepth 16384
set_option synthInstance.maxSize 4096

noncomputable section

open scoped BigOperators

namespace Cert.KernelIdeal.KV

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ)

/-! ## The index maps over the grid -/

/-- The printed index maps, decided over the grid: the activations' block row is the output's and its block column
    is 0; the packed weights, packed zero points, scales and bias have block row 0 and the output's block column; the
    output's block indices stay below 64 and 11. -/
theorem idx_facts : ∀ t : Fin cfg0.N, win0_0.index t (0 : Fin 2) = win0_5.index t (0 : Fin 2)
    ∧ win0_0.index t (1 : Fin 2) = 0
    ∧ win0_1.index t (0 : Fin 2) = 0
    ∧ win0_1.index t (1 : Fin 2) = win0_5.index t (1 : Fin 2)
    ∧ win0_2.index t (0 : Fin 2) = 0
    ∧ win0_2.index t (1 : Fin 2) = win0_5.index t (1 : Fin 2)
    ∧ win0_3.index t (0 : Fin 2) = 0
    ∧ win0_3.index t (1 : Fin 2) = win0_5.index t (1 : Fin 2)
    ∧ win0_4.index t (0 : Fin 2) = 0
    ∧ win0_4.index t (1 : Fin 2) = win0_5.index t (1 : Fin 2)
    ∧ win0_5.index t (0 : Fin 2) ≤ 63
    ∧ win0_5.index t (1 : Fin 2) ≤ 10 :=
  (by decide +kernel : ∀ t : Fin grid0.N, _)

/-- The output's index map in closed form, decided over the grid: point `t` has block row `t / 11` and block
    column `t % 11`. -/
theorem idx_out : ∀ t : Fin cfg0.N, win0_5.index t (0 : Fin 2) = t.val / 11 ∧ win0_5.index t (1 : Fin 2) = t.val % 11 :=
  (by decide +kernel : ∀ t : Fin grid0.N, _)

/-- Every pair of a block row below 64 and a block column below 11 is some point's output block: the point
    `11 · q0 + q1`. -/
theorem idx_onto (q0 q1 : Nat) (h0 : q0 < 64) (h1 : q1 < 11) :
    ∃ t : Fin cfg0.N, win0_5.index t (0 : Fin 2) = q0 ∧ win0_5.index t (1 : Fin 2) = q1 := by
  have hlt : q0 * 11 + q1 < 704 := by omega
  refine ⟨(⟨q0 * 11 + q1, hlt⟩ : Fin 704), ?_⟩
  obtain ⟨a0, a1⟩ := idx_out (⟨q0 * 11 + q1, hlt⟩ : Fin 704)
  have v : ((⟨q0 * 11 + q1, hlt⟩ : Fin 704) : Nat) = q0 * 11 + q1 := rfl
  rw [v] at a0 a1
  exact ⟨by omega, by omega⟩

/-! ## Each input block, read where the output's rectangle says -/

/-- Row `r` of the activation block at point `t` is row `128 · i + r` of the activations. -/
theorem read_act (c : Dev nD) (t : Fin cfg0.N) (r : Fin 128) (k : Fin 4096) (R : Fin 8192)
    (hR : R.val = win0_5.index t (0 : Fin 2) * 128 + r.val) :
    iblk m c 0 t (ix2 r k) = V m c main_v0 (ix2 R k) := by
  obtain ⟨e0, e1, -⟩ := idx_facts t
  unfold iblk
  show V m c main_v0 (((cfg0.win 0).blk t).view.emb (ix2 r k)) = V m c main_v0 (ix2 R k)
  refine congrArg _ ?_
  funext a; apply Fin.ext
  match a with
  | ⟨0, _⟩ => show win0_0.index t (0 : Fin 2) * 128 + 1 * r.val = R.val; omega
  | ⟨1, _⟩ => show win0_0.index t (1 : Fin 2) * 4096 + 1 * k.val = k.val; omega

/-- Column `p` of the packed-weight block at point `t` is column `128 · j + p` of the packed weights. -/
theorem read_qw (c : Dev nD) (t : Fin cfg0.N) (k : Fin 4096) (p : Fin 128) (P : Fin 1408)
    (hP : P.val = win0_5.index t (1 : Fin 2) * 128 + p.val) :
    iblk m c 1 t (ix2 k p) = V m c main_v1 (ix2 k P) := by
  obtain ⟨-, -, e0, e1, -⟩ := idx_facts t
  unfold iblk
  show V m c main_v1 (((cfg0.win 1).blk t).view.emb (ix2 k p)) = V m c main_v1 (ix2 k P)
  refine congrArg _ ?_
  funext a; apply Fin.ext
  match a with
  | ⟨0, _⟩ => show win0_1.index t (0 : Fin 2) * 4096 + 1 * k.val = k.val; omega
  | ⟨1, _⟩ => show win0_1.index t (1 : Fin 2) * 128 + 1 * p.val = P.val; omega

/-- Column `p` of the packed-zero-point block at point `t` is column `128 · j + p` of the packed zero points. -/
theorem read_qz (c : Dev nD) (t : Fin cfg0.N) (g : Fin 32) (p : Fin 128) (P : Fin 1408)
    (hP : P.val = win0_5.index t (1 : Fin 2) * 128 + p.val) :
    iblk m c 2 t (ix2 g p) = V m c main_v2 (ix2 g P) := by
  obtain ⟨-, -, -, -, e0, e1, -⟩ := idx_facts t
  unfold iblk
  show V m c main_v2 (((cfg0.win 2).blk t).view.emb (ix2 g p)) = V m c main_v2 (ix2 g P)
  refine congrArg _ ?_
  funext a; apply Fin.ext
  match a with
  | ⟨0, _⟩ => show win0_2.index t (0 : Fin 2) * 32 + 1 * g.val = g.val; omega
  | ⟨1, _⟩ => show win0_2.index t (1 : Fin 2) * 128 + 1 * p.val = P.val; omega

/-- Column `cc` of the scale block at point `t` is column `1024 · j + cc` of the scales. -/
theorem read_sc (c : Dev nD) (t : Fin cfg0.N) (g : Fin 32) (cc : Fin 1024) (n : Fin 11264)
    (hn : n.val = win0_5.index t (1 : Fin 2) * 1024 + cc.val) :
    iblk m c 3 t (ix2 g cc) = V m c main_v3 (ix2 g n) := by
  obtain ⟨-, -, -, -, -, -, e0, e1, -⟩ := idx_facts t
  unfold iblk
  show V m c main_v3 (((cfg0.win 3).blk t).view.emb (ix2 g cc)) = V m c main_v3 (ix2 g n)
  refine congrArg _ ?_
  funext a; apply Fin.ext
  match a with
  | ⟨0, _⟩ => show win0_3.index t (0 : Fin 2) * 32 + 1 * g.val = g.val; omega
  | ⟨1, _⟩ => show win0_3.index t (1 : Fin 2) * 1024 + 1 * cc.val = n.val; omega

/-- Column `cc` of the bias block at point `t` is column `1024 · j + cc` of the bias row. -/
theorem read_bias (c : Dev nD) (t : Fin cfg0.N) (cc : Fin 1024) (n : Fin 11264)
    (hn : n.val = win0_5.index t (1 : Fin 2) * 1024 + cc.val) :
    iblk m c 4 t (ix2 0 cc) = V m c main_v5 (ix2 0 n) := by
  obtain ⟨-, -, -, -, -, -, -, -, e0, e1, -⟩ := idx_facts t
  unfold iblk
  show V m c main_v5 (((cfg0.win 4).blk t).view.emb (ix2 0 cc)) = V m c main_v5 (ix2 0 n)
  refine congrArg _ ?_
  funext a; apply Fin.ext
  match a with
  | ⟨0, _⟩ => show win0_4.index t (0 : Fin 2) * 1 + 1 * (0 : Fin 1).val = (0 : Fin 1).val; omega
  | ⟨1, _⟩ => show win0_4.index t (1 : Fin 2) * 1024 + 1 * cc.val = n.val; omega

/-! ## What a point writes back -/

/-- Column `cc` of the dequantised weight blocks at point `t` is column `1024 · j + cc` of the dequantised padded
    weights: the packed column `(1024 · j + cc) / 8` is `128 · j + cc / 8` and the field `(1024 · j + cc) % 8` is
    `cc % 8`. -/
theorem wgt_point (c : Dev nD) (t : Fin cfg0.N) (k : Fin 4096) (cc : Fin 1024) (n : Fin 11264)
    (hn : n.val = win0_5.index t (1 : Fin 2) * 1024 + cc.val) :
    Cert.Awq.wgtG (K := 4096) (G := 32) (P := 128) (N := 1024) (by decide) (by decide)
        (iblk m c 1 t) (iblk m c 2 t) (iblk m c 3 t) k cc
      = Cert.Awq.wgtG (K := 4096) (G := 32) (P := 1408) (N := 11264) (by decide) (by decide)
        (V m c main_v1) (V m c main_v2) (V m c main_v3) k n := by
  have hcc := cc.isLt
  have hnl := n.isLt
  have hk := k.isLt
  have hp : (⟨n.val / 8, by omega⟩ : Fin 1408).val = win0_5.index t (1 : Fin 2) * 128 + (⟨cc.val / 8, by omega⟩ : Fin 128).val := by
    show n.val / 8 = win0_5.index t (1 : Fin 2) * 128 + cc.val / 8
    omega
  have hf : (⟨cc.val % 8, by omega⟩ : Fin 8) = ⟨n.val % 8, by omega⟩ :=
    Fin.ext (by show cc.val % 8 = n.val % 8; omega)
  unfold Cert.Awq.wgtG
  rw [read_qw m c t k ⟨cc.val / 8, by omega⟩ ⟨n.val / 8, by omega⟩ hp,
    read_qz m c t ⟨k.val / 128, by omega⟩ ⟨cc.val / 8, by omega⟩ ⟨n.val / 8, by omega⟩ hp,
    read_sc m c t ⟨k.val / 128, by omega⟩ cc n hn, hf]

/-- At point `t`, entry `(r, cc)` of the block function of the point's five input blocks is entry
    `(128 · i + r, 1024 · j + cc)` of the padded result. -/
theorem point_eq (c : Dev nD) (t : Fin cfg0.N) (r : Fin 128) (cc : Fin 1024) (R : Fin 8192) (n : Fin 11264)
    (hR : R.val = win0_5.index t (0 : Fin 2) * 128 + r.val)
    (hn : n.val = win0_5.index t (1 : Fin 2) * 1024 + cc.val) :
    Cert.Awq.dotG (M := 128) (K := 4096) (G := 32) (P := 128) (N := 1024) (by decide) (by decide)
        (iblk m c 0 t) (iblk m c 1 t) (iblk m c 2 t) (iblk m c 3 t) r cc + iblk m c 4 t (ix2 0 cc)
      = GP m c (ix2 R n) := by
  rw [GP_apply, read_bias m c t cc n hn]
  refine congrArg (· + V m c main_v5 (ix2 0 n)) ?_
  unfold Cert.Awq.dotG
  refine Finset.sum_congr rfl fun k _ => ?_
  rw [read_act m c t r k R hR, wgt_point m c t k cc n hn]

/-- What point `t` writes back is block `t` of the padded result. -/
theorem flushed5_eq (c : Dev nD) (t : Fin cfg0.N) :
    (dats m 0 c).flushed 5 t = ((cfg0.win 5).blk t).view.read (Elt Ideal) (GP m c) := by
  show (cfg0.win 5).cut (grid0.coords t) ((dats m 0 c).after 5 t) = _
  rw [after0_5]
  unfold outsAt0
  refine funext fun (y : S128x1024.Idx) => ?_
  obtain ⟨r, cc, rfl⟩ : ∃ (r : Fin 128) (cc : Fin 1024), y = ix2 r cc := ⟨y 0, y 1, eq_ix2 y⟩
  have hr := r.isLt
  have hcc := cc.isLt
  obtain ⟨-, -, -, -, -, -, -, -, -, -, b0, b1⟩ := idx_facts t
  show out0_A_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _)
      (iblk m c 0 t) (iblk m c 1 t) (iblk m c 2 t) (iblk m c 3 t) (iblk m c 4 t) (ix2 r cc)
    = GP m c (((cfg0.win 5).blk t).view.emb (ix2 r cc))
  have hemb : ((cfg0.win 5).blk t).view.emb (ix2 r cc)
      = ix2 (⟨win0_5.index t (0 : Fin 2) * 128 + r.val, by omega⟩ : Fin 8192)
          (⟨win0_5.index t (1 : Fin 2) * 1024 + cc.val, by omega⟩ : Fin 11264) := by
    funext a; apply Fin.ext
    match a with
    | ⟨0, _⟩ => show win0_5.index t (0 : Fin 2) * 128 + 1 * r.val = win0_5.index t (0 : Fin 2) * 128 + r.val; omega
    | ⟨1, _⟩ => show win0_5.index t (1 : Fin 2) * 1024 + 1 * cc.val = win0_5.index t (1 : Fin 2) * 1024 + cc.val; omega
  rw [hemb]
  exact (out0_A_5_apply c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _)
      (iblk m c 0 t) (iblk m c 1 t) (iblk m c 2 t) (iblk m c 3 t) (iblk m c 4 t) r cc).trans
    (point_eq m c t r cc _ _ rfl rfl)

/-! ## The blocks cover the array -/

/-- An index of the output array is in point `t`'s block iff each coordinate is in the block's range on its axis. -/
theorem mem_blk5 (t : Fin cfg0.N) (i : S8192x11264.Idx) :
    i ∈ ((cfg0.win 5).blk t).view.set ↔ ∀ a : Fin 2, win0_5.index t a * S128x1024.size a ≤ (i a).val ∧ (i a).val < win0_5.index t a * S128x1024.size a + S128x1024.size a := by
  show i ∈ ((View.whole main_v6).slice (win0_5.rect t)).set ↔ _
  rw [View.set_slice_whole, Rect.mem_set_unit]
  exact Iff.rfl

/-- Every index `(R, n)` of the output array is in the block of the point with block row `R / 128` and block
    column `n / 1024`, and that point writes its block back. -/
theorem cover5 (i : S8192x11264.Idx) :
    ∃ t : Fin cfg0.N, (cfg0.win 5).flush t = true ∧ i ∈ ((cfg0.win 5).blk t).view.set := by
  have hi0 : (i 0).val < 8192 := idx2_lt0 i
  have hi1 : (i 1).val < 11264 := idx2_lt1 i
  obtain ⟨t, q0, q1⟩ := idx_onto ((i 0).val / 128) ((i 1).val / 1024) (by omega) (by omega)
  refine ⟨t, flush0_5 t, ?_⟩
  rw [mem_blk5]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 1024 ≤ (i 1).val ∧ (i 1).val < win0_5.index t (1 : Fin 2) * 1024 + 1024; omega

/-- The output array after the run is the padded result. -/
theorem final5 (c : Dev nD) : (dats m 0 c).arrAt 5 cfg0.N = GP m c :=
  (dats m 0 c).arrAt_eq_of_cover 5 (GP m c) (fun t _ => flushed5_eq m c t) cover5

end Cert.KernelIdeal.KV

end
-- ==== Proof.KArrays.lean ====
/-
  The arrays the kernel's region finds, read off the host operations that run before it, and the padded result
  against the specification.

  The activations are cast to bf16, which over the extended reals is the identity.  The packed weights
  [4096,1376] and the packed zero points [32,1376] are padded on the right with 32 columns, the scales
  [32,11008] and the bias [11008] with 256 columns; the padded bias is then read as one row [1,11264].  A
  padded array read at a column of the unpadded part is the unpadded array there.  For an output column
  n < 11008 the packed column n / 8 is below 1376, so the padded result at (r, n) reads every array inside its
  unpadded part and equals the specification's out[r, n].
-/
import proofs.«402201_j53455162966737_4_alg».proof.Proof.KGlobal
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost

set_option synthInstance.maxSize 4096

noncomputable section

namespace Cert.KernelIdeal.KV

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-! ## The arrays as terms over the arguments -/

/-- The activations the region finds are the argument: the cast to bf16 changes no extended real. -/
theorem V_v0 (c : Dev nD) :
    (V m c main_v0 : S8192x4096.Idx → EReal) = fun i => (m ((c : Thread nD τ).loc main_arg0) : S8192x4096.Idx → EReal) i := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results
  rfl

/-- The packed weights the region finds: the argument with 32 zero columns on the right. -/
theorem V_v1 (c : Dev nD) :
    (V m c main_v1 : S4096x1408.Idx → BitVec 32)
      = pad S4096x1408 ![0, 0] ![0, 32] ![0, 0] (m ((c : Thread nD τ).loc main_arg1) : S4096x1376.Idx → BitVec 32)
          (constantI S_ 32 0#32) pads_S4096x1376_S4096x1408_000_0320 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results
  rfl

/-- The packed zero points the region finds: the argument with 32 zero columns on the right. -/
theorem V_v2 (c : Dev nD) :
    (V m c main_v2 : S32x1408.Idx → BitVec 32)
      = pad S32x1408 ![0, 0] ![0, 32] ![0, 0] (m ((c : Thread nD τ).loc main_arg2) : S32x1376.Idx → BitVec 32)
          (constantI S_ 32 0#32) pads_S32x1376_S32x1408_000_0320 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results
  rfl

/-- The scales the region finds: the argument with 256 zero columns on the right. -/
theorem V_v3 (c : Dev nD) :
    (V m c main_v3 : S32x11264.Idx → EReal)
      = pad S32x11264 ![0, 0] ![0, 256] ![0, 0] (m ((c : Thread nD τ).loc main_arg3) : S32x11008.Idx → EReal)
          (sitofp (F := Ideal) .f32 (constantI S_ 32 0#32)) pads_S32x11008_S32x11264_000_02560 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results
  rfl

/-- The bias row the region finds: the argument with 256 zero entries on the right, read as one row. -/
theorem V_v5 (c : Dev nD) :
    (V m c main_v5 : S1x11264.Idx → EReal)
      = shapeCast S1x11264
          (pad S11264 ![0] ![256] ![0] (m ((c : Thread nD τ).loc main_arg4) : S11008.Idx → EReal)
            (sitofp (F := Ideal) .f32 (constantI S_ 32 0#32)) pads_S11008_S11264_02560 h_S_)
          shapeCasts_S11264_S1x11264 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results
  rfl

/-! ## The arrays at an index of the unpadded part

The column is a natural number with its two bounds, so that a column written as a quotient is matched as it stands. -/

/-- In the first 1376 columns the padded packed weights are the packed weights. -/
theorem V_v1_at (c : Dev nD) (k : Fin 4096) (p : ℕ) (hp : p < 1376) (hp' : p < 1408) :
    (V m c main_v1 : S4096x1408.Idx → BitVec 32) (ix2 k (⟨p, hp'⟩ : Fin 1408))
      = (m ((c : Thread nD τ).loc main_arg1) : S4096x1376.Idx → BitVec 32) (ix2 k (⟨p, hp⟩ : Fin 1376)) := by
  rw [V_v1]
  exact pad_apply_of_inside _ _ _ _ _ _ _ _ (ix2 k (⟨p, hp⟩ : Fin 1376)) (by
    intro a
    fin_cases a
    · show k.val = 0 + k.val * (0 + 1); omega
    · show p = 0 + p * (0 + 1); omega)

/-- In the first 1376 columns the padded packed zero points are the packed zero points. -/
theorem V_v2_at (c : Dev nD) (g : Fin 32) (p : ℕ) (hp : p < 1376) (hp' : p < 1408) :
    (V m c main_v2 : S32x1408.Idx → BitVec 32) (ix2 g (⟨p, hp'⟩ : Fin 1408))
      = (m ((c : Thread nD τ).loc main_arg2) : S32x1376.Idx → BitVec 32) (ix2 g (⟨p, hp⟩ : Fin 1376)) := by
  rw [V_v2]
  exact pad_apply_of_inside _ _ _ _ _ _ _ _ (ix2 g (⟨p, hp⟩ : Fin 1376)) (by
    intro a
    fin_cases a
    · show g.val = 0 + g.val * (0 + 1); omega
    · show p = 0 + p * (0 + 1); omega)

/-- In the first 11008 columns the padded scales are the scales. -/
theorem V_v3_at (c : Dev nD) (g : Fin 32) (n : ℕ) (hn : n < 11008) (hn' : n < 11264) :
    (V m c main_v3 : S32x11264.Idx → EReal) (ix2 g (⟨n, hn'⟩ : Fin 11264))
      = (m ((c : Thread nD τ).loc main_arg3) : S32x11008.Idx → EReal) (ix2 g (⟨n, hn⟩ : Fin 11008)) := by
  rw [V_v3]
  exact pad_apply_of_inside _ _ _ _ _ _ _ _ (ix2 g (⟨n, hn⟩ : Fin 11008)) (by
    intro a
    fin_cases a
    · show g.val = 0 + g.val * (0 + 1); omega
    · show n = 0 + n * (0 + 1); omega)

/-- In the first 11008 columns the padded bias row is the bias. -/
theorem V_v5_at (c : Dev nD) (n : ℕ) (hn : n < 11008) (hn' : n < 11264) :
    (V m c main_v5 : S1x11264.Idx → EReal) (ix2 (0 : Fin 1) (⟨n, hn'⟩ : Fin 11264))
      = (m ((c : Thread nD τ).loc main_arg4) : S11008.Idx → EReal) (ix1 (⟨n, hn⟩ : Fin 11008)) := by
  rw [V_v5, shapeCast_a_1a_apply]
  exact pad_apply_of_inside _ _ _ _ _ _ _ _ (ix1 (⟨n, hn⟩ : Fin 11008)) (by
    intro a
    fin_cases a
    show n = 0 + n * (0 + 1); omega)

/-- The activations at any index. -/
theorem V_v0_at (c : Dev nD) (i : S8192x4096.Idx) :
    (V m c main_v0 : S8192x4096.Idx → EReal) i = (m ((c : Thread nD τ).loc main_arg0) : S8192x4096.Idx → EReal) i :=
  congrFun (V_v0 m c) i

/-! ## The padded result against the specification -/

/-- The padded result at a column below 11008 is the specification's result: every packed column read is below
    1376, every scale and bias column below 11008, so each padded array is read inside its unpadded part. -/
theorem GP_eq_OUT (c : Dev nD) (r : Fin 8192) (n : Fin 11008) :
    GP m c (ix2 r ⟨n.val, by have := n.isLt; omega⟩)
      = Cert.Awq.OUT (m ((c : Thread nD τ).loc main_arg0)) (m ((c : Thread nD τ).loc main_arg1)) (m ((c : Thread nD τ).loc main_arg2)) (m ((c : Thread nD τ).loc main_arg3)) (m ((c : Thread nD τ).loc main_arg4)) (ix2 r n) := by
  have hn := n.isLt
  rw [GP_apply, Cert.Awq.OUT_apply, Cert.Awq.outAt_eq_dotG]
  unfold Cert.Awq.dotG Cert.Awq.wgtG
  refine congrArg₂ (· + ·) ?_ ?_
  · refine Finset.sum_congr rfl fun k _ => ?_
    rw [V_v0_at, V_v1_at m c k (n.val / 8) (by omega) (by omega), V_v2_at m c _ (n.val / 8) (by omega) (by omega),
      V_v3_at m c _ n.val hn (by omega)]
  · exact V_v5_at m c n.val hn (by omega)

end Cert.KernelIdeal.KV

end
-- ==== Proof.KFinal.lean ====
/-
  The kernel program's run, read as a value.

  The program is some host operations, one kernel region, and one host operation after it: the region's last array,
  [8192, 11264], is cut to its first 11008 columns. The generated run says where every buffer ends: a window's array at
  what the region's write-backs leave, any other buffer at the host tail's result over those arrays. So the result
  buffer ends at the slice of the region's last array, and entry (r, n) of a slice at offset (0, 0) is entry (r, n) of
  its source. Two facts are taken as hypotheses, each proved elsewhere: the region's last array ends at the padded
  result `GP`, and `GP` on the first 11008 columns is the specification `OUT` of the arguments. With them the result
  buffer ends at `OUT` of the arguments; the arguments themselves are written by no operation and by no window.
-/
import proofs.«402201_j53455162966737_4_alg».proof.Proof.KGlobal
import Idealize.ShloMosaic.Lib.StableHlo.Run
import Idealize.ShloMosaic.Lib.ValueIdx
import Idealize.ShloMosaic.Lib.Pipeline.Value

set_option synthInstance.maxSize 4096

noncomputable section

namespace Cert.KernelIdeal.KV

open Idealize.ShloMosaic Idealize.ShloMosaic.ValueIdx Idealize.ShloMosaic.TcCoe Idealize.SL.Sem Cert.KernelIdeal Cert.KernelIdeal.Gen
open Idealize.ShloMosaic.StableHlo

variable (m : (ℓ : Loc nD τ sig) → Buf (Elt Ideal) ℓ) (ρ : Dev nD → PrngReg)

/-- The region's last array, read through the arrays-over-a-valuation view the generated run states its tail over:
    the last window's array is the buffer the tail reads, and it ends at the padded result. -/
theorem arr_v6 (hfinal : ∀ c : Dev nD, (dats m 0 c).arrAt 5 cfg0.N = GP m c) (c : Dev nD) :
    Pipeline.withArrays (cfgs 0).spec c (V0 m c) (fun w => (dats m 0 c).arrAt w (cfgs 0).N) (Proc.devRef .tc main_v6) = GP m c :=
  (Pipeline.withArrays_arr spec0 launch0.win.arr_inj c _ _ 5).trans (hfinal c)

/-- Entry (r, n) of the first 11008 columns of any [8192, 11264] array is its entry (r, n): both offsets are zero. -/
theorem slice_apply (G : S8192x11264.Idx → EReal) (r : Fin 8192) (n : Fin 11008) :
    extractStridedSlice S8192x11008 ![0, 0] G slices_S8192x11264_S8192x11008_0_0 (ix2 r n)
      = G (ix2 r ⟨n.val, by have := n.isLt; omega⟩) := by
  refine extractStridedSlice_apply ![0, 0] G slices_S8192x11264_S8192x11008_0_0 (ix2 r n)
    (ix2 r ⟨n.val, by have := n.isLt; omega⟩) ?_
  intro a
  match a with
  | ⟨0, _⟩ => show r.val = 0 + r.val; omega
  | ⟨1, _⟩ => show n.val = 0 + n.val; omega

/-- The host tail is one operation, the cut to the first 11008 columns, applied to the region's last array. -/
theorem tail_red (c : Dev nD) :
    Pipeline.afterTail₀ cfgs (dats m) 0 (V0 m) [hostOps1] c main_v7
      = extractStridedSlice S8192x11008 ![0, 0]
          (Pipeline.withArrays (cfgs 0).spec c (V0 m c) (fun w => (dats m 0 c).arrAt w (cfgs 0).N) (Proc.devRef .tc main_v6))
          slices_S8192x11264_S8192x11008_0_0 := by
  unfold Pipeline.afterTail₀
  show StableHlo.after hostOps1 _ (Proc.devRef .tc main_v7) = _
  after_results

/-- The padded result cut to its first 11008 columns is the specification of the arguments, entry by entry. -/
theorem slice_GP
    (hGP : ∀ (c : Dev nD) (r : Fin 8192) (n : Fin 11008), GP m c (ix2 r ⟨n.val, by have := n.isLt; omega⟩) = Cert.Awq.OUT (m ((c : Thread nD τ).loc main_arg0)) (m ((c : Thread nD τ).loc main_arg1)) (m ((c : Thread nD τ).loc main_arg2)) (m ((c : Thread nD τ).loc main_arg3)) (m ((c : Thread nD τ).loc main_arg4)) (ix2 r n))
    (c : Dev nD) :
    extractStridedSlice S8192x11008 ![0, 0] (GP m c) slices_S8192x11264_S8192x11008_0_0
      = Cert.Awq.OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨r, n, rfl⟩ : ∃ (r : Fin 8192) (n : Fin 11008), i = ix2 r n := ⟨i 0, i 1, eq_ix2 i⟩
  exact (slice_apply (GP m c) r n).trans (hGP c r n)

/-- The host tail's result is the padded result cut to its first 11008 columns. -/
theorem tail_GP (hfinal : ∀ c : Dev nD, (dats m 0 c).arrAt 5 cfg0.N = GP m c) (c : Dev nD) :
    Pipeline.afterTail₀ cfgs (dats m) 0 (V0 m) [hostOps1] c main_v7
      = extractStridedSlice S8192x11008 ![0, 0] (GP m c) slices_S8192x11264_S8192x11008_0_0 :=
  (tail_red m c).trans
    (congrArg (fun x => extractStridedSlice S8192x11008 ![0, 0] x slices_S8192x11264_S8192x11008_0_0) (arr_v6 m hfinal c))

/-- The host tail's result is the specification of the arguments. -/
theorem tail_v7 (hfinal : ∀ c : Dev nD, (dats m 0 c).arrAt 5 cfg0.N = GP m c)
    (hGP : ∀ (c : Dev nD) (r : Fin 8192) (n : Fin 11008), GP m c (ix2 r ⟨n.val, by have := n.isLt; omega⟩) = Cert.Awq.OUT (m ((c : Thread nD τ).loc main_arg0)) (m ((c : Thread nD τ).loc main_arg1)) (m ((c : Thread nD τ).loc main_arg2)) (m ((c : Thread nD τ).loc main_arg3)) (m ((c : Thread nD τ).loc main_arg4)) (ix2 r n))
    (c : Dev nD) :
    Pipeline.afterTail₀ cfgs (dats m) 0 (V0 m) [hostOps1] c main_v7
      = Cert.Awq.OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (tail_GP m hfinal c).trans (slice_GP m hGP c)

/-- From any memory with zero counters, every weakly fair execution of the program terminates with the result at `OUT`
    of the arguments' launch contents and the arguments unchanged. -/
theorem run_of
    (hfinal : ∀ c : Dev nD, (dats m 0 c).arrAt 5 cfg0.N = GP m c)
    (hGP : ∀ (c : Dev nD) (r : Fin 8192) (n : Fin 11008), GP m c (ix2 r ⟨n.val, by have := n.isLt; omega⟩) = Cert.Awq.OUT (m ((c : Thread nD τ).loc main_arg0)) (m ((c : Thread nD τ).loc main_arg1)) (m ((c : Thread nD τ).loc main_arg2)) (m ((c : Thread nD τ).loc main_arg3)) (m ((c : Thread nD τ).loc main_arg4)) (ix2 r n)) :
    θ_run defs (onTc (τ := τ) (main (F := Ideal))) ⟨m, fun _ => 0, ρ⟩ fun r => ∀ c : Dev nD,
      r.2.mem ((c.tc : Thread nD τ).loc main_v7) = Cert.Awq.OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
      ⟨((h c).2 main_v7 (Pipeline.mem_restRefs_of main_v7 (by decide) (by decide))).trans (tail_v7 m hfinal hGP c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.KV

end
-- ==== Proof.RefTerm.lean ====
/-
  The reference program's result as a closed term of its five arguments, in named stages.

  The reference unpacks two tensors of 4-bit fields held eight to a 32-bit word, subtracts the
  per-group zero points from the weights, scales by the per-group scales, multiplies the activations by
  the dequantized weights and adds the bias. Each stage below is the composition, in program order, of
  the functions of the operations that compute it, applied to the stage's inputs: nothing is simplified.

    shifts   : the eight shift amounts  0 + 4 * k, k = 0 … 7
    perm     : the constant table  [0, 4, 1, 5, 2, 6, 3, 7]
    permIdx  : the table with negative entries wrapped by 8, as a column of gather indices
    unpackW  : word (r, c) ↦ fields ((w >>ₛ shifts k) &&& 15) for k = 0 … 7, taken in the order permIdx
               gives, and laid out along the columns:  [4096, 1376] → [4096, 1376 * 8]
    unpackZ  : the same chain on the zero points:     [32, 1376]   → [32, 1376 * 8]
    deq      : rows grouped by 128: (unpackW − unpackZ of the row's group), converted to a float, times the
               group's scale:  [4096, 11008]
    refTerm  : x · deq + bias (the bias broadcast along the rows)
-/
import proofs.«402201_j53455162966737_4_alg».proof.ReferenceIdeal

noncomputable section

namespace Cert.ReferenceIdeal.RefTerm

open Cert.ReferenceIdeal Facts₀ Facts Idealize.ShloMosaic

variable {F : FTy → Type} [FloatOps F] [Facts]

/-- The shift amounts: `0 + 4 * iota` over the eight fields of a word. -/
def shifts : IVec S8 32 :=
  addi (broadcastInDim S8 ![] bcast_S_S8 (constantI S_ 32 0#32))
    (muli (broadcastInDim S8 ![] bcast_S_S8 (constantI S_ 32 4#32)) (iotaInDim S8 32 0))

/-- The constant table of field positions, row-major. -/
def perm : IVec S8 32 := fun i => lit0 (S8.rowMajor i)

/-- The table as gather indices: an entry below zero is taken eight higher, then the vector is made a column. -/
def permIdx : IVec S8x1 32 :=
  broadcastInDim S8x1 ![0] bcast_S8_S8x1_0
    (select (cmpi .slt perm (broadcastInDim S8 ![] bcast_S_S8 (constantI S_ 32 0#32)))
      (addi perm (broadcastInDim S8 ![] bcast_S_S8 (constantI S_ 32 8#32)))
      perm)

/-- The packed weights unpacked: each word's eight 4-bit fields, in the table's order, along the columns. -/
def unpackW (qw : IVec S4096x1376 32) : IVec S4096x11008 32 :=
  shapeCast S4096x11008
    (Host.gather gather_S4096x1376x8_S8x1_S4096x1376x8_01_2_n_n_2_1_409613761
      (andi
        (Host.shrsi
          (broadcastInDim S4096x1376x8 ![0, 1, 2] bcast_S4096x1376x1_S4096x1376x8_0_1_2
            (broadcastInDim S4096x1376x1 ![0, 1] bcast_S4096x1376_S4096x1376x1_0_1 qw))
          (broadcastInDim S4096x1376x8 ![0, 1, 2] bcast_S1x1x8_S4096x1376x8_0_1_2
            (broadcastInDim S1x1x8 ![2] bcast_S8_S1x1x8_2 shifts)))
        (broadcastInDim S4096x1376x8 ![] bcast_S_S4096x1376x8 (constantI S_ 32 15#32)))
      permIdx)
    shapeCasts_S4096x1376x8_S4096x11008

/-- The packed zero points unpacked: the same chain at 32 rows. -/
def unpackZ (qz : IVec S32x1376 32) : IVec S32x11008 32 :=
  shapeCast S32x11008
    (Host.gather gather_S32x1376x8_S8x1_S32x1376x8_01_2_n_n_2_1_3213761
      (andi
        (Host.shrsi
          (broadcastInDim S32x1376x8 ![0, 1, 2] bcast_S32x1376x1_S32x1376x8_0_1_2
            (broadcastInDim S32x1376x1 ![0, 1] bcast_S32x1376_S32x1376x1_0_1 qz))
          (broadcastInDim S32x1376x8 ![0, 1, 2] bcast_S1x1x8_S32x1376x8_0_1_2
            (broadcastInDim S1x1x8 ![2] bcast_S8_S1x1x8_2 shifts)))
        (broadcastInDim S32x1376x8 ![] bcast_S_S32x1376x8 (constantI S_ 32 15#32)))
      permIdx)
    shapeCasts_S32x1376x8_S32x11008

/-- The dequantized weights: within each group of 128 rows, (weight − the group's zero point) as a float,
    times the group's scale. -/
def deq (qw : IVec S4096x1376 32) (qz : IVec S32x1376 32) (sc : FVec F S32x11008 .f32) : FVec F S4096x11008 .f32 :=
  shapeCast S4096x11008
    (mulf
      (sitofp .f32
        (subi
          (shapeCast S32x128x11008 (unpackW qw) shapeCasts_S4096x11008_S32x128x11008)
          (broadcastInDim S32x128x11008 ![0, 1, 2] bcast_S32x1x11008_S32x128x11008_0_1_2
            (broadcastInDim S32x1x11008 ![0, 2] bcast_S32x11008_S32x1x11008_0_2 (unpackZ qz)))))
      (broadcastInDim S32x128x11008 ![0, 1, 2] bcast_S32x1x11008_S32x128x11008_0_1_2
        (broadcastInDim S32x1x11008 ![0, 2] bcast_S32x11008_S32x1x11008_0_2 sc)))
    shapeCasts_S32x128x11008_S4096x11008

/-- The reference's result: the activations times the dequantized weights, plus the bias along the rows. -/
def refTerm (x : FVec F S8192x4096 .f32) (qw : IVec S4096x1376 32) (qz : IVec S32x1376 32)
    (sc : FVec F S32x11008 .f32) (b : FVec F S11008 .f32) : FVec F S8192x11008 .f32 :=
  addf
    (Host.dotGeneral dot_S8192x4096_S4096x11008_S8192x11008_1_0_0_1_n_n none x (deq qw qz sc))
    (broadcastInDim S8192x11008 ![0, 1] bcast_S1x11008_S8192x11008_0_1
      (broadcastInDim S1x11008 ![1] bcast_S11008_S1x11008_1 b))

end Cert.ReferenceIdeal.RefTerm

end
-- ==== Proof.RefRun.lean ====
/-
  The reference program's run.

  The program is a straight line of 64 tensor operations followed by the return; written as a list, its run
  is the fold of the operations' results over the buffers' contents at launch. Read at the result buffer, that
  fold is the operations' functions composed in program order, which is the staged term `RefTerm.refTerm` of
  the five arguments (the two sides differ only in where the stage names stand); read at an argument buffer,
  which no operation writes, it is the argument's contents at launch. So every weakly fair execution terminates
  with the result at `refTerm` of the arguments and the arguments unchanged.
-/
import proofs.«402201_j53455162966737_4_alg».proof.ReferenceIdeal
import Idealize.ShloMosaic.Lib.StableHlo.Run
import proofs.«402201_j53455162966737_4_alg».proof.Proof.RefTerm

noncomputable section

namespace Cert.ReferenceIdeal.RefRun

open Cert.ReferenceIdeal Facts₀ Facts Idealize.ShloMosaic Idealize.ShloMosaic.TcCoe Idealize.SL.Sem Idealize.ShloMosaic.StableHlo

variable {F : FTy → Type} [FloatOps F] [Facts]

/-- The program's 64 operations, in order: the first 60 are the first window's, the last 4 the second's. -/
abbrev ops : List (HloOp τ sig (Elt F)) :=
  [ StableHlo.nullary main_c (fun i => lit0 (S8.rowMajor i)),
    StableHlo.nullary main_v0 (iotaInDim S8 32 0),
    StableHlo.nullary main_c_0 (constantI S_ 32 4#32),
    StableHlo.unary main_c_0 main_v1 (broadcastInDim S8 ![] bcast_S_S8 : (⟨S_, .i32⟩ : BufTy).Contents (Elt F) → (⟨S8, .i32⟩ : BufTy).Contents (Elt F)),
    StableHlo.binary main_v1 main_v0 main_v2 (muli : (⟨S8, .i32⟩ : BufTy).Contents (Elt F) → (⟨S8, .i32⟩ : BufTy).Contents (Elt F) → (⟨S8, .i32⟩ : BufTy).Contents (Elt F)),
    StableHlo.nullary main_c_1 (constantI S_ 32 0#32),
    StableHlo.unary main_c_1 main_v3 (broadcastInDim S8 ![] bcast_S_S8 : (⟨S_, .i32⟩ : BufTy).Contents (Elt F) → (⟨S8, .i32⟩ : BufTy).Contents (Elt F)),
    StableHlo.binary main_v3 main_v2 main_v4 (addi : (⟨S8, .i32⟩ : BufTy).Contents (Elt F) → (⟨S8, .i32⟩ : BufTy).Contents (Elt F) → (⟨S8, .i32⟩ : BufTy).Contents (Elt F)),
    StableHlo.unary main_arg1 main_v5 (broadcastInDim S4096x1376x1 ![0, 1] bcast_S4096x1376_S4096x1376x1_0_1 : (⟨S4096x1376, .i32⟩ : BufTy).Contents (Elt F) → (⟨S4096x1376x1, .i32⟩ : BufTy).Contents (Elt F)),
    StableHlo.unary main_v4 main_v6 (broadcastInDim S1x1x8 ![2] bcast_S8_S1x1x8_2 : (⟨S8, .i32⟩ : BufTy).Contents (Elt F) → (⟨S1x1x8, .i32⟩ : BufTy).Contents (Elt F)),
    StableHlo.unary main_v5 main_v7 (broadcastInDim S4096x1376x8 ![0, 1, 2] bcast_S4096x1376x1_S4096x1376x8_0_1_2 : (⟨S4096x1376x1, .i32⟩ : BufTy).Contents (Elt F) → (⟨S4096x1376x8, .i32⟩ : BufTy).Contents (Elt F)),
    StableHlo.unary main_v6 main_v8 (broadcastInDim S4096x1376x8 ![0, 1, 2] bcast_S1x1x8_S4096x1376x8_0_1_2 : (⟨S1x1x8, .i32⟩ : BufTy).Contents (Elt F) → (⟨S4096x1376x8, .i32⟩ : BufTy).Contents (Elt F)),
    StableHlo.binary main_v7 main_v8 main_v9 (Host.shrsi : (⟨S4096x1376x8, .i32⟩ : BufTy).Contents (Elt F) → (⟨S4096x1376x8, .i32⟩ : BufTy).Contents (Elt F) → (⟨S4096x1376x8, .i32⟩ : BufTy).Contents (Elt F)),
    StableHlo.nullary main_c_2 (constantI S_ 32 15#32),
    StableHlo.unary main_c_2 main_v10 (broadcastInDim S4096x1376x8 ![] bcast_S_S4096x1376x8 : (⟨S_, .i32⟩ : BufTy).Contents (Elt F) → (⟨S4096x1376x8, .i32⟩ : BufTy).Contents (Elt F)),
    StableHlo.binary main_v9 main_v10 main_v11 (andi : (⟨S4096x1376x8, .i32⟩ : BufTy).Contents (Elt F) → (⟨S4096x1376x8, .i32⟩ : BufTy).Contents (Elt F) → (⟨S4096x1376x8, .i32⟩ : BufTy).Contents (Elt F)),
    StableHlo.nullary main_c_3 (constantI S_ 32 0#32),
    StableHlo.unary main_c_3 main_v12 (broadcastInDim S8 ![] bcast_S_S8 : (⟨S_, .i32⟩ : BufTy).Contents (Elt F) → (⟨S8, .i32⟩ : BufTy).Contents (Elt F)),
    StableHlo.binary main_c main_v12 main_v13 (cmpi .slt : (⟨S8, .i32⟩ : BufTy).Contents (Elt F) → (⟨S8, .i32⟩ : BufTy).Contents (Elt F) → (⟨S8, .i1⟩ : BufTy).Contents (Elt F)),
    StableHlo.nullary main_c_4 (constantI S_ 32 8#32),
    StableHlo.unary main_c_4 main_v14 (broadcastInDim S8 ![] bcast_S_S8 : (⟨S_, .i32⟩ : BufTy).Contents (Elt F) → (⟨S8, .i32⟩ : BufTy).Contents (Elt F)),
    StableHlo.binary main_c main_v14 main_v15 (addi : (⟨S8, .i32⟩ : BufTy).Contents (Elt F) → (⟨S8, .i32⟩ : BufTy).Contents (Elt F) → (⟨S8, .i32⟩ : BufTy).Contents (Elt F)),
    StableHlo.ternary main_v13 main_v15 main_c main_v16 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v16 main_v17 (broadcastInDim S8x1 ![0] bcast_S8_S8x1_0 : (⟨S8, .i32⟩ : BufTy).Contents (Elt F) → (⟨S8x1, .i32⟩ : BufTy).Contents (Elt F)),
    StableHlo.binary main_v11 main_v17 main_v18 ((fun x i => Host.gather gather_S4096x1376x8_S8x1_S4096x1376x8_01_2_n_n_2_1_409613761 x i) : (⟨S4096x1376x8, .i32⟩ : BufTy).Contents (Elt F) → (⟨S8x1, .i32⟩ : BufTy).Contents (Elt F) → (⟨S4096x1376x8, .i32⟩ : BufTy).Contents (Elt F)),
    StableHlo.reshape main_v18 main_v19 rfl shapeCasts_S4096x1376x8_S4096x11008,
    StableHlo.nullary main_v20 (iotaInDim S8 32 0),
    StableHlo.nullary main_c_5 (constantI S_ 32 4#32),
    StableHlo.unary main_c_5 main_v21 (broadcastInDim S8 ![] bcast_S_S8 : (⟨S_, .i32⟩ : BufTy).Contents (Elt F) → (⟨S8, .i32⟩ : BufTy).Contents (Elt F)),
    StableHlo.binary main_v21 main_v20 main_v22 (muli : (⟨S8, .i32⟩ : BufTy).Contents (Elt F) → (⟨S8, .i32⟩ : BufTy).Contents (Elt F) → (⟨S8, .i32⟩ : BufTy).Contents (Elt F)),
    StableHlo.nullary main_c_6 (constantI S_ 32 0#32),
    StableHlo.unary main_c_6 main_v23 (broadcastInDim S8 ![] bcast_S_S8 : (⟨S_, .i32⟩ : BufTy).Contents (Elt F) → (⟨S8, .i32⟩ : BufTy).Contents (Elt F)),
    StableHlo.binary main_v23 main_v22 main_v24 (addi : (⟨S8, .i32⟩ : BufTy).Contents (Elt F) → (⟨S8, .i32⟩ : BufTy).Contents (Elt F) → (⟨S8, .i32⟩ : BufTy).Contents (Elt F)),
    StableHlo.unary main_arg2 main_v25 (broadcastInDim S32x1376x1 ![0, 1] bcast_S32x1376_S32x1376x1_0_1 : (⟨S32x1376, .i32⟩ : BufTy).Contents (Elt F) → (⟨S32x1376x1, .i32⟩ : BufTy).Contents (Elt F)),
    StableHlo.unary main_v24 main_v26 (broadcastInDim S1x1x8 ![2] bcast_S8_S1x1x8_2 : (⟨S8, .i32⟩ : BufTy).Contents (Elt F) → (⟨S1x1x8, .i32⟩ : BufTy).Contents (Elt F)),
    StableHlo.unary main_v25 main_v27 (broadcastInDim S32x1376x8 ![0, 1, 2] bcast_S32x1376x1_S32x1376x8_0_1_2 : (⟨S32x1376x1, .i32⟩ : BufTy).Contents (Elt F) → (⟨S32x1376x8, .i32⟩ : BufTy).Contents (Elt F)),
    StableHlo.unary main_v26 main_v28 (broadcastInDim S32x1376x8 ![0, 1, 2] bcast_S1x1x8_S32x1376x8_0_1_2 : (⟨S1x1x8, .i32⟩ : BufTy).Contents (Elt F) → (⟨S32x1376x8, .i32⟩ : BufTy).Contents (Elt F)),
    StableHlo.binary main_v27 main_v28 main_v29 (Host.shrsi : (⟨S32x1376x8, .i32⟩ : BufTy).Contents (Elt F) → (⟨S32x1376x8, .i32⟩ : BufTy).Contents (Elt F) → (⟨S32x1376x8, .i32⟩ : BufTy).Contents (Elt F)),
    StableHlo.nullary main_c_7 (constantI S_ 32 15#32),
    StableHlo.unary main_c_7 main_v30 (broadcastInDim S32x1376x8 ![] bcast_S_S32x1376x8 : (⟨S_, .i32⟩ : BufTy).Contents (Elt F) → (⟨S32x1376x8, .i32⟩ : BufTy).Contents (Elt F)),
    StableHlo.binary main_v29 main_v30 main_v31 (andi : (⟨S32x1376x8, .i32⟩ : BufTy).Contents (Elt F) → (⟨S32x1376x8, .i32⟩ : BufTy).Contents (Elt F) → (⟨S32x1376x8, .i32⟩ : BufTy).Contents (Elt F)),
    StableHlo.nullary main_c_8 (constantI S_ 32 0#32),
    StableHlo.unary main_c_8 main_v32 (broadcastInDim S8 ![] bcast_S_S8 : (⟨S_, .i32⟩ : BufTy).Contents (Elt F) → (⟨S8, .i32⟩ : BufTy).Contents (Elt F)),
    StableHlo.binary main_c main_v32 main_v33 (cmpi .slt : (⟨S8, .i32⟩ : BufTy).Contents (Elt F) → (⟨S8, .i32⟩ : BufTy).Contents (Elt F) → (⟨S8, .i1⟩ : BufTy).Contents (Elt F)),
    StableHlo.nullary main_c_9 (constantI S_ 32 8#32),
    StableHlo.unary main_c_9 main_v34 (broadcastInDim S8 ![] bcast_S_S8 : (⟨S_, .i32⟩ : BufTy).Contents (Elt F) → (⟨S8, .i32⟩ : BufTy).Contents (Elt F)),
    StableHlo.binary main_c main_v34 main_v35 (addi : (⟨S8, .i32⟩ : BufTy).Contents (Elt F) → (⟨S8, .i32⟩ : BufTy).Contents (Elt F) → (⟨S8, .i32⟩ : BufTy).Contents (Elt F)),
    StableHlo.ternary main_v33 main_v35 main_c main_v36 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v36 main_v37 (broadcastInDim S8x1 ![0] bcast_S8_S8x1_0 : (⟨S8, .i32⟩ : BufTy).Contents (Elt F) → (⟨S8x1, .i32⟩ : BufTy).Contents (Elt F)),
    StableHlo.binary main_v31 main_v37 main_v38 ((fun x i => Host.gather gather_S32x1376x8_S8x1_S32x1376x8_01_2_n_n_2_1_3213761 x i) : (⟨S32x1376x8, .i32⟩ : BufTy).Contents (Elt F) → (⟨S8x1, .i32⟩ : BufTy).Contents (Elt F) → (⟨S32x1376x8, .i32⟩ : BufTy).Contents (Elt F)),
    StableHlo.reshape main_v38 main_v39 rfl shapeCasts_S32x1376x8_S32x11008,
    StableHlo.reshape main_v19 main_v40 rfl shapeCasts_S4096x11008_S32x128x11008,
    StableHlo.unary main_v39 main_v41 (broadcastInDim S32x1x11008 ![0, 2] bcast_S32x11008_S32x1x11008_0_2 : (⟨S32x11008, .i32⟩ : BufTy).Contents (Elt F) → (⟨S32x1x11008, .i32⟩ : BufTy).Contents (Elt F)),
    StableHlo.unary main_v41 main_v42 (broadcastInDim S32x128x11008 ![0, 1, 2] bcast_S32x1x11008_S32x128x11008_0_1_2 : (⟨S32x1x11008, .i32⟩ : BufTy).Contents (Elt F) → (⟨S32x128x11008, .i32⟩ : BufTy).Contents (Elt F)),
    StableHlo.binary main_v40 main_v42 main_v43 (subi : (⟨S32x128x11008, .i32⟩ : BufTy).Contents (Elt F) → (⟨S32x128x11008, .i32⟩ : BufTy).Contents (Elt F) → (⟨S32x128x11008, .i32⟩ : BufTy).Contents (Elt F)),
    StableHlo.unary main_v43 main_v44 (sitofp .f32 : (⟨S32x128x11008, .i32⟩ : BufTy).Contents (Elt F) → (⟨S32x128x11008, .f32⟩ : BufTy).Contents (Elt F)),
    StableHlo.unary main_arg3 main_v45 (broadcastInDim S32x1x11008 ![0, 2] bcast_S32x11008_S32x1x11008_0_2 : (⟨S32x11008, .f32⟩ : BufTy).Contents (Elt F) → (⟨S32x1x11008, .f32⟩ : BufTy).Contents (Elt F)),
    StableHlo.unary main_v45 main_v46 (broadcastInDim S32x128x11008 ![0, 1, 2] bcast_S32x1x11008_S32x128x11008_0_1_2 : (⟨S32x1x11008, .f32⟩ : BufTy).Contents (Elt F) → (⟨S32x128x11008, .f32⟩ : BufTy).Contents (Elt F)),
    StableHlo.binary main_v44 main_v46 main_v47 (mulf : (⟨S32x128x11008, .f32⟩ : BufTy).Contents (Elt F) → (⟨S32x128x11008, .f32⟩ : BufTy).Contents (Elt F) → (⟨S32x128x11008, .f32⟩ : BufTy).Contents (Elt F)),
    StableHlo.reshape main_v47 main_v48 rfl shapeCasts_S32x128x11008_S4096x11008,
    StableHlo.binary main_arg0 main_v48 main_v49 ((fun l r => Host.dotGeneral dot_S8192x4096_S4096x11008_S8192x11008_1_0_0_1_n_n none l r) : (⟨S8192x4096, .f32⟩ : BufTy).Contents (Elt F) → (⟨S4096x11008, .f32⟩ : BufTy).Contents (Elt F) → (⟨S8192x11008, .f32⟩ : BufTy).Contents (Elt F)),
    StableHlo.unary main_arg4 main_v50 (broadcastInDim S1x11008 ![1] bcast_S11008_S1x11008_1 : (⟨S11008, .f32⟩ : BufTy).Contents (Elt F) → (⟨S1x11008, .f32⟩ : BufTy).Contents (Elt F)),
    StableHlo.unary main_v50 main_v51 (broadcastInDim S8192x11008 ![0, 1] bcast_S1x11008_S8192x11008_0_1 : (⟨S1x11008, .f32⟩ : BufTy).Contents (Elt F) → (⟨S8192x11008, .f32⟩ : BufTy).Contents (Elt F)),
    StableHlo.binary main_v49 main_v51 main_v52 (addf : (⟨S8192x11008, .f32⟩ : BufTy).Contents (Elt F) → (⟨S8192x11008, .f32⟩ : BufTy).Contents (Elt F) → (⟨S8192x11008, .f32⟩ : BufTy).Contents (Elt F)) ]

/-- The program is the line of its operations: the two windows run in order are their concatenation run as one,
    and the second window's closing return is the line's. -/
theorem main_eq (c : Dev nD) : main (F := F) c = StableHlo.seq ops := rfl

/-- The signature scopes no buffer and no semaphore: every buffer is a tensor value of the program. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., nullary_bufs_sub .., unary_bufs_sub .., binary_bufs_sub ..,
   nullary_bufs_sub .., unary_bufs_sub .., binary_bufs_sub .., unary_bufs_sub .., unary_bufs_sub ..,
   unary_bufs_sub .., unary_bufs_sub .., binary_bufs_sub .., nullary_bufs_sub .., unary_bufs_sub ..,
   binary_bufs_sub .., nullary_bufs_sub .., unary_bufs_sub .., binary_bufs_sub .., nullary_bufs_sub ..,
   unary_bufs_sub .., binary_bufs_sub .., ternary_bufs_sub .., unary_bufs_sub .., binary_bufs_sub ..,
   reshape_bufs_sub ..,
   nullary_bufs_sub .., nullary_bufs_sub .., unary_bufs_sub .., binary_bufs_sub ..,
   nullary_bufs_sub .., unary_bufs_sub .., binary_bufs_sub .., unary_bufs_sub .., unary_bufs_sub ..,
   unary_bufs_sub .., unary_bufs_sub .., binary_bufs_sub .., nullary_bufs_sub .., unary_bufs_sub ..,
   binary_bufs_sub .., nullary_bufs_sub .., unary_bufs_sub .., binary_bufs_sub .., nullary_bufs_sub ..,
   unary_bufs_sub .., binary_bufs_sub .., ternary_bufs_sub .., unary_bufs_sub .., binary_bufs_sub ..,
   reshape_bufs_sub ..,
   reshape_bufs_sub .., unary_bufs_sub .., unary_bufs_sub .., binary_bufs_sub .., unary_bufs_sub ..,
   unary_bufs_sub .., unary_bufs_sub .., binary_bufs_sub .., reshape_bufs_sub ..,
   binary_bufs_sub .., unary_bufs_sub .., unary_bufs_sub .., binary_bufs_sub ..⟩

/-- From any contents `V`, the result buffer ends at the staged term of the arguments' contents: each operation's
    result at its own buffer is its function of its operands' contents, and unfolding the stages gives the same
    composition. -/
theorem after_out (V : Valuation τ sig (Elt F)) :
    after ops V (Proc.devRef .tc main_v52)
      = RefTerm.refTerm (V (Proc.devRef .tc main_arg0)) (V (Proc.devRef .tc main_arg1)) (V (Proc.devRef .tc main_arg2))
          (V (Proc.devRef .tc main_arg3)) (V (Proc.devRef .tc main_arg4)) := by
  after_results_simp
  rfl

/-- No operation writes an argument buffer: each keeps its contents. -/
theorem after_arg0 (V : Valuation τ sig (Elt F)) : after ops V (Proc.devRef .tc main_arg0) = V (Proc.devRef .tc main_arg0) := by
  after_results_simp
theorem after_arg1 (V : Valuation τ sig (Elt F)) : after ops V (Proc.devRef .tc main_arg1) = V (Proc.devRef .tc main_arg1) := by
  after_results_simp
theorem after_arg2 (V : Valuation τ sig (Elt F)) : after ops V (Proc.devRef .tc main_arg2) = V (Proc.devRef .tc main_arg2) := by
  after_results_simp
theorem after_arg3 (V : Valuation τ sig (Elt F)) : after ops V (Proc.devRef .tc main_arg3) = V (Proc.devRef .tc main_arg3) := by
  after_results_simp
theorem after_arg4 (V : Valuation τ sig (Elt F)) : after ops V (Proc.devRef .tc main_arg4) = V (Proc.devRef .tc main_arg4) := by
  after_results_simp

/-- On every device, for any float values, from any memory with zero counters: every weakly fair execution of
    the program terminates with the result at `refTerm` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = RefTerm.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v52).trans (after_out _),
      (h c main_arg0).trans (after_arg0 _),
      (h c main_arg1).trans (after_arg1 _),
      (h c main_arg2).trans (after_arg2 _),
      (h c main_arg3).trans (after_arg3 _),
      (h c main_arg4).trans (after_arg4 _)⟩)
    (run_seq scopedRefs_eq scopedSems_eq defs main (fun _ => ops) main_eq (fun _ => ops_sub) m ρ)

end Cert.ReferenceIdeal.RefRun

end
-- ==== Proof.RefValueUnpack.lean ====
/-
  The integer side of the reference, read index by index: the packed words unpacked into 4-bit fields.

    * a gather along the last axis of an [A, B, 8] array by a column of eight start indices reads the operand at
      the same leading coordinates and at the start index, read signed and clamped into 0 … 7;
    * the column of start indices holds the table 0, 4, 1, 5, 2, 6, 3, 7 (no entry is negative, so the wrap-around
      by 8 changes nothing), and the shift amount at table entry `f` is 4 · (entry), which is the bit offset of
      logical field `f` of a packed word;
    * reshaping [A, B, 8] to [A, 8·B] sends column `n` to word `n / 8`, field `n % 8`, so the unpacked arrays
      hold `nib (word) (n % 8)`.
-/
import Idealize.ShloMosaic.Lib.ValueIdx
import Idealize.ShloMosaic.Lib.Pipeline.Value
import Idealize.ShloMosaic.Lib.KernelVsHost
import proofs.«402201_j53455162966737_4_alg».proof.Proof.RefTerm
import proofs.«402201_j53455162966737_4_alg».proof.Proof.Spec

noncomputable section

namespace Cert.ReferenceIdeal.RefValue

open Cert.ReferenceIdeal Facts₀ Facts Idealize.ShloMosaic Idealize.ShloMosaic.ValueIdx

variable [Facts]

/-! ## A gather along the last axis -/

/-- The dimension numbers of a gather along the last axis of an [A, B, 8] array by a column of eight indices. -/
abbrev lastAxisDims (A B : Nat)
    (wf : GatherDims.WF ⟨3, ![A, B, 8]⟩ ⟨2, ![8, 1]⟩ ⟨3, ![A, B, 8]⟩ [0, 1] [2] [] [2] [] 1 ![A, B, 1]) :
    GatherDims ⟨3, ![A, B, 8]⟩ ⟨2, ![8, 1]⟩ ⟨3, ![A, B, 8]⟩ where
  offsetDims := [0, 1]
  collapsedSliceDims := [2]
  operandBatchingDims := []
  startIndicesBatchingDims := []
  startIndexMap := [2]
  indexVectorDim := 1
  sliceSizes := ![A, B, 1]
  wf := wf

/-- The axes of a rank-3 shape other than the last, in order. -/
theorem kept_but_last : (List.finRange 3).filter (fun a => decide (a ∉ ([2] ++ [] : List (Fin 3)))) = [0, 1] := by
  decide

theorem gather_lastAxis_apply {α : Type} {A B w : Nat}
    (wf : GatherDims.WF ⟨3, ![A, B, 8]⟩ ⟨2, ![8, 1]⟩ ⟨3, ![A, B, 8]⟩ [0, 1] [2] [] [2] [] 1 ![A, B, 1])
    (x : (⟨3, ![A, B, 8]⟩ : Shape).Idx → α) (idx : IVec ⟨2, ![8, 1]⟩ w) (a : Fin A) (b : Fin B) (c : Fin 8) :
    Host.gather (lastAxisDims A B wf) x idx (ix3 a b c)
      = x (ix3 a b ⟨min (idx (ix2 c 0)).toInt.toNat 7, by omega⟩) := by
  have hkept : (lastAxisDims A B wf).sKept = [0, 1] := kept_but_last
  -- a coordinate read through the position of an axis in a list that is the literal list
  have key : ∀ (l : List (Fin 3)) (hl : l = [0, 1]) (e : Fin 3) (h : List.idxOf e l < ([0, 1] : List (Fin 3)).length),
      (ix3 a b c (([0, 1] : List (Fin 3))[List.idxOf e l]'h)).val
        = (ix3 a b c (([0, 1] : List (Fin 3))[List.idxOf e ([0, 1] : List (Fin 3))]'(hl ▸ h))).val := by
    intro l hl e h; subst hl; rfl
  unfold Host.gather
  congr 1
  funext ax
  refine Fin.ext ?_
  match ax with
  | ⟨0, _⟩ =>
    -- a kept axis: no start, no batch coordinate, the result's own coordinate
    show (lastAxisDims A B wf).start (ix3 a b c) idx 0 + (lastAxisDims A B wf).batchCoord (ix3 a b c) 0
        + (lastAxisDims A B wf).offCoord (ix3 a b c) 0 = a.val
    rw [GatherDims.batchCoord_eq_zero _ _ _ List.not_mem_nil]
    unfold GatherDims.start
    rw [dif_neg (show (0 : Fin 3) ∉ ([2] : List (Fin 3)) by decide)]
    unfold GatherDims.offCoord
    rw [dif_pos ((GatherDims.mem_sKept _ _).2 ⟨(show (0 : Fin 3) ∉ ([2] : List (Fin 3)) by decide), List.not_mem_nil⟩)]
    simp only [Nat.zero_add]
    exact (key _ hkept 0 _).trans rfl
  | ⟨1, _⟩ =>
    show (lastAxisDims A B wf).start (ix3 a b c) idx 1 + (lastAxisDims A B wf).batchCoord (ix3 a b c) 1
        + (lastAxisDims A B wf).offCoord (ix3 a b c) 1 = b.val
    rw [GatherDims.batchCoord_eq_zero _ _ _ List.not_mem_nil]
    unfold GatherDims.start
    rw [dif_neg (show (1 : Fin 3) ∉ ([2] : List (Fin 3)) by decide)]
    unfold GatherDims.offCoord
    rw [dif_pos ((GatherDims.mem_sKept _ _).2 ⟨(show (1 : Fin 3) ∉ ([2] : List (Fin 3)) by decide), List.not_mem_nil⟩)]
    simp only [Nat.zero_add]
    exact (key _ hkept 1 _).trans rfl
  | ⟨2, _⟩ =>
    -- the gathered axis: the start index read signed and clamped, nothing else
    show (lastAxisDims A B wf).start (ix3 a b c) idx 2 + (lastAxisDims A B wf).batchCoord (ix3 a b c) 2
        + (lastAxisDims A B wf).offCoord (ix3 a b c) 2 = min (idx (ix2 c 0)).toInt.toNat 7
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastAxisDims A B wf).startIndexMap from List.mem_singleton.mpr rfl)]
    have hsi : (lastAxisDims A B wf).siIdx (ix3 a b c) ⟨List.idxOf (2 : Fin 3) (lastAxisDims A B wf).startIndexMap,
        List.idxOf_lt_length_iff.2 (List.mem_singleton.mpr rfl)⟩ = ix2 c 0 := by
      funext d; refine Fin.ext ?_
      match d with
      | ⟨0, _⟩ => rfl
      | ⟨1, _⟩ => rfl
    rw [hsi]
    rfl

/-! ## The table of field positions and the shift amounts -/

/-- The table's position of a rank-1 index is its coordinate. -/
theorem rowMajor_S8 (f : Fin 8) : S8.rowMajor (ix1 f) = f := Fin.ext (by rw [Shape.rowMajor_val_one])

/-- None of the table's entries is negative, so the wrap-around leaves each as it is. -/
theorem wrap_lit0 : ∀ f : Fin 8,
    Scalar.select (IntOp.cmpi .slt (lit0 f) 0#32) (IntOp.addi (lit0 f) 8#32) (lit0 f) = lit0 f := by decide

/-- The shift amount at the position the table gives for field `f` is the field's bit offset. -/
theorem shift_lit0 : ∀ f g : Fin 8, g.val = min (lit0 f).toInt.toNat 7 →
    IntOp.addi 0#32 (IntOp.muli 4#32 (BitVec.ofNat 32 g.val)) = Cert.Awq.shiftW f := by decide

/-- The column of gather indices holds the table. -/
theorem permIdx_apply (f : Fin 8) : RefTerm.permIdx (ix2 f 0) = lit0 f := by
  unfold RefTerm.permIdx
  rw [broadcastInDim_apply _ _ _ _ (ix1 f) (by intro a; match a with | ⟨0, _⟩ => rfl)]
  show Scalar.select (IntOp.cmpi .slt (RefTerm.perm (ix1 f)) 0#32) (IntOp.addi (RefTerm.perm (ix1 f)) 8#32)
    (RefTerm.perm (ix1 f)) = _
  have hp : RefTerm.perm (ix1 f) = lit0 f := by unfold RefTerm.perm; rw [rowMajor_S8]
  rw [hp]; exact wrap_lit0 f

/-- The shift amounts: zero plus four times the position. -/
theorem shifts_apply (g : Fin 8) :
    RefTerm.shifts (ix1 g) = IntOp.addi 0#32 (IntOp.muli 4#32 (BitVec.ofNat 32 g.val)) := rfl

/-- One word shifted by the amount at the gathered position and masked is the word's field. -/
theorem field_of_word (q : BitVec 32) (f g : Fin 8) (hg : g.val = min (RefTerm.permIdx (ix2 f 0)).toInt.toNat 7) :
    IntOp.andi (IntOp.shrsi .host q (RefTerm.shifts (ix1 g))) 15#32 = Cert.Awq.nib q f := by
  unfold Cert.Awq.nib
  rw [shrsi_unit .host .vector, shifts_apply, shift_lit0 f g (by rw [hg, permIdx_apply])]

/-! ## The words and the shift amounts repeated to [A, B, 8] -/

/-- An [A, B] array of words repeated along a new last axis of eight reads the word. -/
theorem words_apply {A B : Nat} (h1 : (⟨2, ![A, B]⟩ : Shape).BroadcastsInDim ⟨3, ![A, B, 1]⟩ ![0, 1])
    (h2 : (⟨3, ![A, B, 1]⟩ : Shape).BroadcastsInDim ⟨3, ![A, B, 8]⟩ ![0, 1, 2]) (q : IVec ⟨2, ![A, B]⟩ 32)
    (a : Fin A) (b : Fin B) (g : Fin 8) :
    broadcastInDim ⟨3, ![A, B, 8]⟩ ![0, 1, 2] h2 (broadcastInDim ⟨3, ![A, B, 1]⟩ ![0, 1] h1 q) (ix3 a b g)
      = q (ix2 a b) := by
  rw [broadcastInDim_apply _ _ _ (ix3 a b g) (ix3 a b (0 : Fin 1)) (by
      intro ax
      match ax with
      | ⟨0, _⟩ => show a.val = if A = 1 then 0 else a.val; have := a.isLt; split <;> omega
      | ⟨1, _⟩ => show b.val = if B = 1 then 0 else b.val; have := b.isLt; split <;> omega
      | ⟨2, _⟩ => rfl),
    broadcastInDim_apply _ _ _ (ix3 a b (0 : Fin 1)) (ix2 a b) (by
      intro ax
      match ax with
      | ⟨0, _⟩ => show a.val = if A = 1 then 0 else a.val; have := a.isLt; split <;> omega
      | ⟨1, _⟩ => show b.val = if B = 1 then 0 else b.val; have := b.isLt; split <;> omega)]

/-- A vector of eight repeated over the two leading axes reads its entry at the last coordinate. -/
theorem lanes_apply {A B : Nat} (h3 : S8.BroadcastsInDim S1x1x8 ![2])
    (h4 : S1x1x8.BroadcastsInDim ⟨3, ![A, B, 8]⟩ ![0, 1, 2]) (s : IVec S8 32) (a : Fin A) (b : Fin B) (g : Fin 8) :
    broadcastInDim ⟨3, ![A, B, 8]⟩ ![0, 1, 2] h4 (broadcastInDim S1x1x8 ![2] h3 s) (ix3 a b g) = s (ix1 g) := by
  rw [broadcastInDim_apply _ _ _ (ix3 a b g) (ix3 (0 : Fin 1) (0 : Fin 1) g) (by
      intro ax
      match ax with
      | ⟨0, _⟩ => rfl
      | ⟨1, _⟩ => rfl
      | ⟨2, _⟩ => rfl),
    broadcastInDim_apply _ _ _ (ix3 (0 : Fin 1) (0 : Fin 1) g) (ix1 g) (by
      intro ax
      match ax with
      | ⟨0, _⟩ => rfl)]

/-- The eight fields of every word, before the gather: word `(a, b)` shifted by the amount at `g`, masked. -/
theorem fields_apply {A B : Nat} (h1 : (⟨2, ![A, B]⟩ : Shape).BroadcastsInDim ⟨3, ![A, B, 1]⟩ ![0, 1])
    (h2 : (⟨3, ![A, B, 1]⟩ : Shape).BroadcastsInDim ⟨3, ![A, B, 8]⟩ ![0, 1, 2])
    (h3 : S8.BroadcastsInDim S1x1x8 ![2]) (h4 : S1x1x8.BroadcastsInDim ⟨3, ![A, B, 8]⟩ ![0, 1, 2])
    (h5 : S_.BroadcastsInDim ⟨3, ![A, B, 8]⟩ ![]) (q : IVec ⟨2, ![A, B]⟩ 32) (a : Fin A) (b : Fin B) (g : Fin 8) :
    andi
        (Host.shrsi
          (broadcastInDim ⟨3, ![A, B, 8]⟩ ![0, 1, 2] h2 (broadcastInDim ⟨3, ![A, B, 1]⟩ ![0, 1] h1 q))
          (broadcastInDim ⟨3, ![A, B, 8]⟩ ![0, 1, 2] h4 (broadcastInDim S1x1x8 ![2] h3 RefTerm.shifts)))
        (broadcastInDim ⟨3, ![A, B, 8]⟩ ![] h5 (constantI S_ 32 15#32)) (ix3 a b g)
      = IntOp.andi (IntOp.shrsi .host (q (ix2 a b)) (RefTerm.shifts (ix1 g))) 15#32 := by
  have e1 := words_apply h1 h2 q a b g
  have e2 := lanes_apply h3 h4 RefTerm.shifts a b g
  show IntOp.andi (IntOp.shrsi .host _ _) _ = _
  rw [e1, e2]
  rfl

/-! ## The unpacked weights and zero points -/

/-- The unpacked weights at row `k`, column `n`: field `n % 8` of the word in packed column `n / 8`. -/
theorem unpackW_apply (qw : IVec S4096x1376 32) (k : Fin 4096) (n : Fin 11008) :
    RefTerm.unpackW qw (ix2 k n) = Cert.Awq.nib (qw (ix2 k (Cert.Awq.pcol n))) (Cert.Awq.fld n) := by
  unfold RefTerm.unpackW
  rw [shapeCast_apply _ _ (ix2 k n) (ix3 k (Cert.Awq.pcol n) (Cert.Awq.fld n)) (by
    rw [Shape.rowMajor_val_three, Shape.rowMajor_val_two]
    show (k.val * 1376 + n.val / 8) * 8 + n.val % 8 = k.val * 11008 + n.val
    omega)]
  refine (gather_lastAxis_apply gather_S4096x1376x8_S8x1_S4096x1376x8_01_2_n_n_2_1_409613761_wf _ _
    k (Cert.Awq.pcol n) (Cert.Awq.fld n)).trans ?_
  rw [fields_apply]
  exact field_of_word _ _ _ rfl

/-- The unpacked zero points at group `g`, column `n`. -/
theorem unpackZ_apply (qz : IVec S32x1376 32) (g : Fin 32) (n : Fin 11008) :
    RefTerm.unpackZ qz (ix2 g n) = Cert.Awq.nib (qz (ix2 g (Cert.Awq.pcol n))) (Cert.Awq.fld n) := by
  unfold RefTerm.unpackZ
  rw [shapeCast_apply _ _ (ix2 g n) (ix3 g (Cert.Awq.pcol n) (Cert.Awq.fld n)) (by
    rw [Shape.rowMajor_val_three, Shape.rowMajor_val_two]
    show (g.val * 1376 + n.val / 8) * 8 + n.val % 8 = g.val * 11008 + n.val
    omega)]
  refine (gather_lastAxis_apply gather_S32x1376x8_S8x1_S32x1376x8_01_2_n_n_2_1_3213761_wf _ _
    g (Cert.Awq.pcol n) (Cert.Awq.fld n)).trans ?_
  rw [fields_apply]
  exact field_of_word _ _ _ rfl

end Cert.ReferenceIdeal.RefValue

end
-- ==== Proof.RefValue.lean ====
/-
  The reference's value, read index by index at the ideal instance.

  On top of the unpacked fields (the integer side, proved apart):

    * reshaping [4096, 11008] to [32, 128, 11008] sends row `k` to group `k / 128`, row `k % 128` of the group;
      the difference of two fields does not wrap, so the dequantised entry is the specification's weight
      `(field of the weight word − field of the zero-point word) · scale`;
    * the product contracts the one axis of length 4096: the left operand is read at (row, position), the right
      one at (position, column);
    * the bias is repeated along the rows.

  Together: the reference's term is the specification's array `Cert.Awq.OUT`.
-/
import Idealize.ShloMosaic.Lib.ValueIdx
import Idealize.ShloMosaic.Lib.Pipeline.Value
import Idealize.ShloMosaic.PureOps.Ideal.Laws
import proofs.«402201_j53455162966737_4_alg».proof.Proof.RefValueUnpack
import proofs.«402201_j53455162966737_4_alg».proof.Proof.SpecFacts

noncomputable section

open scoped BigOperators

namespace Cert.ReferenceIdeal.RefValue

open Cert.ReferenceIdeal Facts₀ Facts Idealize.ShloMosaic Idealize.ShloMosaic.ValueIdx

variable [Facts]

/-! ## The dequantised weights -/

/-- Row `k` inside its group of 128. -/
def rowIn (k : Fin 4096) : Fin 128 := ⟨k.val % 128, Nat.mod_lt _ (by decide)⟩

/-- A per-group array repeated over the 128 rows of each group reads the group's entry. -/
theorem groups_apply {α : Type} (h6 : S32x11008.BroadcastsInDim S32x1x11008 ![0, 2])
    (h7 : S32x1x11008.BroadcastsInDim S32x128x11008 ![0, 1, 2]) (v : S32x11008.Idx → α)
    (g : Fin 32) (r : Fin 128) (n : Fin 11008) :
    broadcastInDim S32x128x11008 ![0, 1, 2] h7 (broadcastInDim S32x1x11008 ![0, 2] h6 v) (ix3 g r n) = v (ix2 g n) := by
  rw [broadcastInDim_apply _ _ _ (ix3 g r n) (ix3 g (0 : Fin 1) n) (by
      intro ax
      match ax with
      | ⟨0, _⟩ => rfl
      | ⟨1, _⟩ => rfl
      | ⟨2, _⟩ => rfl),
    broadcastInDim_apply _ _ _ (ix3 g (0 : Fin 1) n) (ix2 g n) (by
      intro ax
      match ax with
      | ⟨0, _⟩ => rfl
      | ⟨1, _⟩ => rfl)]

/-- The rows regrouped as 32 groups of 128: row `k` is row `k % 128` of group `k / 128`. -/
theorem grouped_apply {α : Type} (h : S4096x11008.ShapeCasts S32x128x11008) (v : S4096x11008.Idx → α)
    (k : Fin 4096) (n : Fin 11008) :
    shapeCast S32x128x11008 v h (ix3 (Cert.Awq.grp k) (rowIn k) n) = v (ix2 k n) := by
  rw [shapeCast_apply _ _ (ix3 (Cert.Awq.grp k) (rowIn k) n) (ix2 k n) (by
    rw [Shape.rowMajor_val_three, Shape.rowMajor_val_two]
    show k.val * 11008 + n.val = (k.val / 128 * 128 + k.val % 128) * 11008 + n.val
    omega)]

/-- The dequantised weight at row `k`, column `n`. -/
theorem deq_apply (qw : IVec S4096x1376 32) (qz : IVec S32x1376 32) (sc : FVec Ideal S32x11008 .f32)
    (k : Fin 4096) (n : Fin 11008) :
    RefTerm.deq (F := Ideal) qw qz sc (ix2 k n) = Cert.Awq.wgt qw qz sc k n := by
  unfold RefTerm.deq
  rw [shapeCast_apply _ _ (ix2 k n) (ix3 (Cert.Awq.grp k) (rowIn k) n) (by
    rw [Shape.rowMajor_val_three, Shape.rowMajor_val_two]
    show (k.val / 128 * 128 + k.val % 128) * 11008 + n.val = k.val * 11008 + n.val
    omega)]
  rw [mulf_apply, sitofp_apply]
  show (((IntOp.subi _ _).toInt : ℝ) : EReal) * _ = _
  rw [grouped_apply, groups_apply, groups_apply, unpackW_apply, unpackZ_apply, Cert.Awq.coe_toInt_subi_nib]
  rfl

/-! ## The product, the bias, and the result -/

/-- The bias repeated over the rows reads its entry at the column. -/
theorem bias_apply {α : Type} (h8 : S11008.BroadcastsInDim S1x11008 ![1])
    (h9 : S1x11008.BroadcastsInDim S8192x11008 ![0, 1]) (v : S11008.Idx → α) (r : Fin 8192) (n : Fin 11008) :
    broadcastInDim S8192x11008 ![0, 1] h9 (broadcastInDim S1x11008 ![1] h8 v) (ix2 r n) = v (ix1 n) := by
  rw [broadcastInDim_apply _ _ _ (ix2 r n) (ix2 (0 : Fin 1) n) (by
      intro ax
      match ax with
      | ⟨0, _⟩ => rfl
      | ⟨1, _⟩ => rfl),
    broadcastInDim_apply _ _ _ (ix2 (0 : Fin 1) n) (ix1 n) (by
      intro ax
      match ax with
      | ⟨0, _⟩ => rfl)]

/-! The operand indices of the product, axis by axis: the left operand's row is the result's row and its column the
contraction position; the right operand's row is the contraction position and its column the result's column. -/

theorem lhs_dot_0 (j : S8192x11008.Idx) (k : dot_S8192x4096_S4096x11008_S8192x11008_1_0_0_1_n_n.contr.Idx) :
    (dot_S8192x4096_S4096x11008_S8192x11008_1_0_0_1_n_n.lhsIdx j k 0).val = (j 0).val := by
  unfold DotDims.lhsIdx
  rw [dif_neg (show ¬(0 : Fin S8192x4096.rank) ∈ dot_S8192x4096_S4096x11008_S8192x11008_1_0_0_1_n_n.lhsBatch
        from List.not_mem_nil),
    dif_pos (show (0 : Fin S8192x4096.rank) ∈ dot_S8192x4096_S4096x11008_S8192x11008_1_0_0_1_n_n.lhsNonContracting
        from List.mem_singleton.mpr rfl)]
  rfl

theorem lhs_dot_1 (j : S8192x11008.Idx) (k : Fin 4096) :
    (dot_S8192x4096_S4096x11008_S8192x11008_1_0_0_1_n_n.lhsIdx j
      ((contrEquiv1 dot_S8192x4096_S4096x11008_S8192x11008_1_0_0_1_n_n 4096 rfl rfl).symm k) 1).val = k.val :=
  (dot_S8192x4096_S4096x11008_S8192x11008_1_0_0_1_n_n.lhsIdx_val_of_single rfl j _).trans
    (contrEquiv1_symm_val dot_S8192x4096_S4096x11008_S8192x11008_1_0_0_1_n_n 4096 rfl rfl k)

theorem rhs_dot_0 (j : S8192x11008.Idx) (k : Fin 4096) :
    (dot_S8192x4096_S4096x11008_S8192x11008_1_0_0_1_n_n.rhsIdx j
      ((contrEquiv1 dot_S8192x4096_S4096x11008_S8192x11008_1_0_0_1_n_n 4096 rfl rfl).symm k) 0).val = k.val :=
  (dot_S8192x4096_S4096x11008_S8192x11008_1_0_0_1_n_n.rhsIdx_val_of_single rfl j _).trans
    (contrEquiv1_symm_val dot_S8192x4096_S4096x11008_S8192x11008_1_0_0_1_n_n 4096 rfl rfl k)

theorem rhs_dot_1 (j : S8192x11008.Idx) (k : dot_S8192x4096_S4096x11008_S8192x11008_1_0_0_1_n_n.contr.Idx) :
    (dot_S8192x4096_S4096x11008_S8192x11008_1_0_0_1_n_n.rhsIdx j k 1).val = (j 1).val := by
  unfold DotDims.rhsIdx
  rw [dif_neg (show ¬(1 : Fin S4096x11008.rank) ∈ dot_S8192x4096_S4096x11008_S8192x11008_1_0_0_1_n_n.rhsBatch
        from List.not_mem_nil),
    dif_pos (show (1 : Fin S4096x11008.rank) ∈ dot_S8192x4096_S4096x11008_S8192x11008_1_0_0_1_n_n.rhsNonContracting
        from List.mem_singleton.mpr rfl)]
  rfl

theorem lhsIdx_eq (r : Fin 8192) (n : Fin 11008) (k : Fin 4096) :
    dot_S8192x4096_S4096x11008_S8192x11008_1_0_0_1_n_n.lhsIdx (ix2 r n)
      ((contrEquiv1 dot_S8192x4096_S4096x11008_S8192x11008_1_0_0_1_n_n 4096 rfl rfl).symm k) = ix2 r k := by
  funext a; refine Fin.ext ?_
  match a with
  | ⟨0, _⟩ => exact lhs_dot_0 _ _
  | ⟨1, _⟩ => exact lhs_dot_1 _ _

theorem rhsIdx_eq (r : Fin 8192) (n : Fin 11008) (k : Fin 4096) :
    dot_S8192x4096_S4096x11008_S8192x11008_1_0_0_1_n_n.rhsIdx (ix2 r n)
      ((contrEquiv1 dot_S8192x4096_S4096x11008_S8192x11008_1_0_0_1_n_n 4096 rfl rfl).symm k) = ix2 k n := by
  funext a; refine Fin.ext ?_
  match a with
  | ⟨0, _⟩ => exact rhs_dot_0 _ _
  | ⟨1, _⟩ => exact rhs_dot_1 _ _

/-- The reference's result is the specification's array. -/
theorem refTerm_eq (x : FVec Ideal S8192x4096 .f32) (qw : IVec S4096x1376 32) (qz : IVec S32x1376 32)
    (sc : FVec Ideal S32x11008 .f32) (b : FVec Ideal S11008 .f32) :
    RefTerm.refTerm (F := Ideal) x qw qz sc b = Cert.Awq.OUT x qw qz sc b := by
  funext i
  obtain ⟨r, n, rfl⟩ : ∃ (r : Fin 8192) (n : Fin 11008), i = ix2 r n := ⟨i 0, i 1, eq_ix2 i⟩
  rw [Cert.Awq.OUT_apply]
  unfold RefTerm.refTerm Cert.Awq.outAt
  rw [addf_apply, bias_apply]
  simp only [Host.dotGeneral]
  rw [Ideal.dotGeneral_apply,
    ← Equiv.sum_comp (contrEquiv1 dot_S8192x4096_S4096x11008_S8192x11008_1_0_0_1_n_n 4096 rfl rfl).symm]
  refine congrArg (· + b (ix1 n)) (Finset.sum_congr rfl fun k _ => ?_)
  rw [lhsIdx_eq, rhsIdx_eq, deq_apply]

end Cert.ReferenceIdeal.RefValue

end
-- ==== Proof.lean ====
/-
  The certificate's claim, assembled.

  The layer is a linear map with 4-bit quantised weights: a packed 32-bit word holds eight 4-bit fields, of the
  weights and of the zero points alike; the dequantised weight is
  `w[k, n] = (field of qweight − field of qzeros) · scale`, the zero point and the scale taken from row `k`'s group
  of 128 rows, and the result is `out[r, n] = (∑ₖ x[r, k] · w[k, n]) + bias[n]` (`Cert.Awq.OUT`).

  Read at the ideal instance, where a float is an extended real and every operation is exact, both programs end
  with their result array holding `Cert.Awq.OUT` of the five arguments. The kernel computes it block by block over
  zero-padded arrays, its output blocks cover the padded result, and the final slice drops the padding. The
  reference unpacks the fields by shifts, a mask and a gather along the last axis, subtracts, scales, contracts
  the one axis of length 4096 and adds the bias. So from memories that agree on the arguments the two results are
  equal, element by element.

  The frames: each of the three programs terminates with its argument arrays unchanged. The ideal pass rewrote
  no operation of the kernel, so the idealised kernel is the kernel's own text.
-/
import proofs.«402201_j53455162966737_4_alg».proof.Defs
import proofs.«402201_j53455162966737_4_alg».proof.Proof.Gen.Kernel.Frame
import proofs.«402201_j53455162966737_4_alg».proof.Proof.Gen.KernelIdeal.Frame
import proofs.«402201_j53455162966737_4_alg».proof.Proof.Gen.ReferenceIdeal
import proofs.«402201_j53455162966737_4_alg».proof.Proof.Gen.Pre_finite_inputs
import proofs.«402201_j53455162966737_4_alg».proof.Proof.Spec
import proofs.«402201_j53455162966737_4_alg».proof.Proof.KBlocks
import proofs.«402201_j53455162966737_4_alg».proof.Proof.KArrays
import proofs.«402201_j53455162966737_4_alg».proof.Proof.KFinal
import proofs.«402201_j53455162966737_4_alg».proof.Proof.RefRun
import proofs.«402201_j53455162966737_4_alg».proof.Proof.RefValue

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference runs and leaves its arguments as they were: its run's post without the result's conjunct. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote nothing: the idealised kernel is the kernel's own text read at the ideal instance. -/
theorem preserves : Cert.preserves_Kernel_KernelIdeal := trivial

/-- At the ideal instance, from memories that agree on the five arguments, the kernel's result array and the
    reference's both end at the one array `Cert.Awq.OUT` of the arguments:
    `out[r, n] = (∑ₖ x[r, k] · (field(qweight) − field(qzeros)) · scale) + bias[n]`. -/
theorem algebraic : Cert.algebraic_KernelIdeal_ReferenceIdeal := by
  intro m ρ m' ρ' _ hagree
  refine ⟨_, Cert.KernelIdeal.KV.run_of m ρ (Cert.KernelIdeal.KV.final5 m) (Cert.KernelIdeal.KV.GP_eq_OUT m), ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refTerm_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
